-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1000x1024 : Shape := ⟨2, ![1000, 1024]⟩
abbrev S16384 : Shape := ⟨1, ![16384]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S16384 : S_.BroadcastsInDim S16384 (![] : Fin 0 → Fin S16384.rank)
  reducesTo_S16384_S_d0 : S16384.ReducesTo [0] S_
  reducesTo_S16384x1024_S16384_d1 : S16384x1024.ReducesTo [1] S16384

variable [Facts]

def fn_part1 {F : FTy → Type} [FloatOps F] (main_v15 : IVec S_ 1) (main_v16 : FVec F S16384x1024 .f32) : IVec S_ 1 :=
  let main_cst_5 : FVec F S_ .f32 := constant S_ .f32 0x00000000#32
  let main_v17 : FVec F S16384 .f32 := (fun x v => Host.reduceAdd x v reducesTo_S16384x1024_S16384_d1 h_S_) main_v16 main_cst_5
  let main_cst_6 : FVec F S_ .f32 := constant S_ .f32 0x00000000#32
  let main_v18 : FVec F S16384 .f32 := broadcastInDim S16384 ![] bcast_S_S16384 main_cst_6
  let main_v19 : IVec S16384 1 := cmpf .ogt main_v17 main_v18
  let main_c_7 : IVec S_ 1 := constantI S_ 1 1#1
  let main_v20 : IVec S_ 1 := (fun x v => Host.reduce IntOp.andi x v reducesTo_S16384_S_d0 h_S_) main_v19 main_c_7
  let main_v21 : IVec S_ 1 := andi main_v15 main_v20
  main_v21

def fn {F : FTy → Type} [FloatOps F] (main_arg0 : FVec F S16384x1024 .f32) (main_arg1 : FVec F S1000x1024 .f32) (main_arg2 : IVec S16384 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg1
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 1000#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_v16 : FVec F S16384x1024 .f32 := mulf main_arg0 main_arg0
  fn_part1 (F := F) main_v15 main_v16
-- ==== Kernel.lean ====
abbrev S16384x1024 : Shape := ⟨2, ![16384, 1024]⟩
abbrev S1000x1024 : Shape := ⟨2, ![1000, 1024]⟩
abbrev S16384 : Shape := ⟨1, ![16384]⟩
abbrev S_ : Shape := ⟨0, ![]⟩
abbrev S1024x1024 : Shape := ⟨2, ![1024, 1024]⟩
abbrev S16384x1 : Shape := ⟨2, ![16384, 1]⟩
abbrev S1024x1 : Shape := ⟨2, ![1024, 1]⟩
abbrev S1024 : Shape := ⟨1, ![1024]⟩

abbrev nBuf : Space → Nat
  | .hbm => 14
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S16384, .i32⟩
  | .hbm, ⟨3, _⟩ => ⟨S1000x1024, .bf16⟩
  | .hbm, ⟨4, _⟩ => ⟨S_, .i32⟩
  | .hbm, ⟨5, _⟩ => ⟨S_, .bf16⟩
  | .hbm, ⟨6, _⟩ => ⟨S1024x1024, .bf16⟩
  | .hbm, ⟨7, _⟩ => ⟨S16384x1, .i32⟩
  | .hbm, ⟨8, _⟩ => ⟨S16384x1, .f32⟩
  | .hbm, ⟨9, _⟩ => ⟨S16384, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x1024, .bf16⟩
  | .local _ .vmem, ⟨5, _⟩ => ⟨S1024x1, .f32⟩
  | .local _ .vmem, ⟨6, _⟩ => ⟨S1024x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  pads_S1000x1024_S1024x1024_0240_000 : S1000x1024.Pads (![0, 0] : Fin 2 → Nat) ![24, 0] ![0, 0] S1024x1024
  h_S_ : 0 < S_.numel
  shapeCasts_S16384_S16384x1 : S16384.ShapeCasts S16384x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1024x1024 : S1024x1024.ShapeCasts S1024x1024
  iota_S1024x1024_d1_w32 : S1024x1024.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S16384x1_S16384 : S16384x1.ShapeCasts S16384
  reducesTo_S16384_S_d0 : S16384.ReducesTo [0] S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1000x1024 : Shape := ⟨2, ![1000, 1024]⟩
abbrev S16384 : Shape := ⟨1, ![16384]⟩
abbrev S_ : Shape := ⟨0, ![]⟩
abbrev S16384x1 : Shape := ⟨2, ![16384, 1]⟩
abbrev S16384x1000 : Shape := ⟨2, ![16384, 1000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S16384, .i32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S16384x1024, .f32⟩
  | .hbm, ⟨9, _⟩ => ⟨S16384x1024, .f32⟩
  | .hbm, ⟨10, _⟩ => ⟨S16384x1000, .f32⟩
  | .hbm, ⟨11, _⟩ => ⟨S_, .f32⟩
  | .hbm, ⟨12, _⟩ => ⟨S16384x1000, .f32⟩
  | .hbm, ⟨13, _⟩ => ⟨S16384x1000, .f32⟩
  | .hbm, ⟨14, _⟩ => ⟨S_, .f32⟩
  | .hbm, ⟨15, _⟩ => ⟨S16384, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S16384x1, .f32⟩
  | .hbm, ⟨20, _⟩ => ⟨S16384x1000, .f32⟩
  | .hbm, ⟨21, _⟩ => ⟨S16384x1000, .f32⟩
  | .hbm, ⟨22, _⟩ => ⟨S16384x1000, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S16384x1, .f32⟩
  | .hbm, ⟨27, _⟩ => ⟨S16384x1000, .f32⟩
  | .hbm, ⟨28, _⟩ => ⟨S16384x1000, .f32⟩
  | .hbm, ⟨29, _⟩ => ⟨S16384x1, .i32⟩
  | .hbm, ⟨30, _⟩ => ⟨S_, .i32⟩
  | .hbm, ⟨31, _⟩ => ⟨S16384x1, .i32⟩
  | .hbm, ⟨32, _⟩ => ⟨S16384x1, .i1⟩
  | .hbm, ⟨33, _⟩ => ⟨S_, .i32⟩
  | .hbm, ⟨34, _⟩ => ⟨S16384x1, .i32⟩
  | .hbm, ⟨35, _⟩ => ⟨S16384x1, .i32⟩
  | .hbm, ⟨36, _⟩ => ⟨S16384x1, .i32⟩
  | .hbm, ⟨37, _⟩ => ⟨S16384x1x1, .i32⟩
  | .hbm, ⟨38, _⟩ => ⟨S1, .i32⟩
  | .hbm, ⟨39, _⟩ => ⟨S_, .i32⟩
  | .hbm, ⟨40, _⟩ => ⟨S16384x1x1, .i32⟩
  | .hbm, ⟨41, _⟩ => ⟨S16384x1x1, .i1⟩
  | .hbm, ⟨42, _⟩ => ⟨S1x1x1, .i32⟩
  | .hbm, ⟨43, _⟩ => ⟨S16384x1x1, .i32⟩
  | .hbm, ⟨44, _⟩ => ⟨S16384x1x1, .i1⟩
  | .hbm, ⟨45, _⟩ => ⟨S16384x1x1, .i1⟩
  | .hbm, ⟨46, _⟩ => ⟨S_, .i1⟩
  | .hbm, ⟨47, _⟩ => ⟨S16384x1, .i1⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384, .f32⟩
  | .hbm, ⟨53, _⟩ => ⟨S16384, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_call1_cst : Ref sig .tc := ⟨.hbm, 14, rfl⟩
abbrev main_call1_v0 : Ref sig .tc := ⟨.hbm, 15, rfl⟩
abbrev main_call1_cst_0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_cst_1 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_v6 : Ref sig .tc := ⟨.hbm, 28, rfl⟩
abbrev main_v7 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst_0 : Ref sig .tc := ⟨.hbm, 54, rfl⟩
abbrev main_v11 : Ref sig .tc := ⟨.hbm, 55, rfl⟩
abbrev main_cst_1 : Ref sig .tc := ⟨.hbm, 56, rfl⟩
abbrev main_v12 : Ref sig .tc := ⟨.hbm, 57, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x1000 : S_.BroadcastsInDim S16384x1000 (![] : Fin 0 → Fin S16384x1000.rank)
  reducesTo_S16384x1000_S16384_d1 : S16384x1000.ReducesTo [1] S16384
  bcast_S_S16384 : S_.BroadcastsInDim S16384 (![] : Fin 0 → Fin S16384.rank)
  bcast_S16384x1_S16384x1000_0_1 : S16384x1.BroadcastsInDim S16384x1000 (![0, 1] : Fin 2 → Fin S16384x1000.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  dot_S16384x1024_S1000x1024_S16384x1000_1_1_0_0_n_n_wf : DotDims.WF S16384x1024 S1000x1024 S16384x1000 [1] [1] [0] [0] [] []
  gather_S16384x1000_S16384x1x1_S16384x1_n_1_0_0_1_2_11_wf : GatherDims.WF S16384x1000 S16384x1x1 S16384x1 [] [1] [0] [1] [0] 2 ![1, 1]

variable [Facts₀]

def dot_S16384x1024_S1000x1024_S16384x1000_1_1_0_0_n_n : DotDims S16384x1024 S1000x1024 S16384x1000 where
  lhsContracting := [1]
  rhsContracting := [1]
  lhsNonContracting := [0]
  rhsNonContracting := [0]
  lhsBatch := []
  rhsBatch := []
  wf := dot_S16384x1024_S1000x1024_S16384x1000_1_1_0_0_n_n_wf
def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf

class Facts : Prop extends Facts₀ where

variable [Facts]
-- ==== Proof.RefFold.lean ====
/-
  The reference program's result buffer after its 55 operations, from the launch contents, holds the composed
  term that the reference's run states for it (`res_main_v12`): `Fold.after_ops_v12`, proved stretch by stretch
  of the operation list.
-/
import proofs.«412424_j50517405335943_3_alg».proof.Proof.RefRunOps

noncomputable section

namespace Cert.ReferenceIdeal.Value.Fold

open Cert.ReferenceIdeal Cert.ReferenceIdeal.Gen Idealize.ShloMosaic Idealize.ShloMosaic.TcCoe Idealize.SL.Sem Idealize.ShloMosaic.StableHlo

variable {F : FTy → Type} [FloatOps F]

/-! # The reference's value, stage by stage

The reference computes the negative mean, over the rows, of the log-softmax of scaled cosine logits read at a
label: the rows of the first argument are divided by their Euclidean norms and multiplied into the second
argument's rows, the products are scaled, each row is reduced to its log-softmax, one entry per row is read at
that row's label (a negative label counted from the row's end, a label outside the row giving NaN), and the
negated entries are averaged. The operation list is cut into ten stretches of consecutive operations; each
stretch's value is stated as a function of what the stretch reads, from ANY contents of the buffers, and the
stretches are then composed: first within the two halves of the list, then the halves.

A stretch ends at each general reduction (a row maximum, a conjunction along an axis): such a reduction is a
fold over the list of all the operand's positions; where it is a stretch's outermost operation the typed
reference's transport around it is removed by the lemma that a transport along an equation of a type with
itself is the identity (`cast_eq`), and the two reductions then agree argument by argument. -/

/-- The fold over two stretches run one after the other is the fold over the second from the first's result. -/
theorem after_concat : ∀ (l₁ l₂ : List (HloOp τ sig (Elt F))) (V : Valuation τ sig (Elt F)),
    after (l₁ ++ l₂) V = after l₂ (after l₁ V)
  | [], _, _ => rfl
  | op :: l₁, l₂, V => after_concat l₁ l₂ (op.result V)

/-! ## The stages' values -/

/-- Scaled cosine logits: the rows of `x` over their norms, times `wᵀ`, over the scale. -/
def logits (x : (⟨S16384x1024, .f32⟩ : BufTy).Contents (Elt F)) (w : (⟨S1000x1024, .f32⟩ : BufTy).Contents (Elt F)) : (⟨S16384x1000, .f32⟩ : BufTy).Contents (Elt F) :=
  Host.divf (Host.dotGeneral dot_S16384x1024_S1000x1024_S16384x1000_1_1_0_0_n_n none
      (Host.divf x (broadcastInDim S16384x1024 ![0, 1] bcast_S16384x1_S16384x1024_0_1
        (Host.sqrt (broadcastInDim S16384x1 ![0] bcast_S16384_S16384x1_0
          (Host.reduceAdd (mulf x x) (constant S_ .f32 0x00000000#32) reducesTo_S16384x1024_S16384_d1 h_S_))))) w)
    (broadcastInDim S16384x1000 ![] bcast_S_S16384x1000 (constant S_ .f32 0x3F800000#32))

/-- Each row's maximum, started from −∞. -/
def maxOf (z : (⟨S16384x1000, .f32⟩ : BufTy).Contents (Elt F)) : (⟨S16384, .f32⟩ : BufTy).Contents (Elt F) :=
  Host.reduce FloatOps.maximumf z (constant S_ .f32 0xFF800000#32) reducesTo_S16384x1000_S16384_d1 h_S_

/-- A per-row number joined with −∞ by the maximum, spread back over the row. -/
def spreadMax (r : (⟨S16384, .f32⟩ : BufTy).Contents (Elt F)) : (⟨S16384x1000, .f32⟩ : BufTy).Contents (Elt F) :=
  broadcastInDim S16384x1000 ![0, 1] bcast_S16384x1_S16384x1000_0_1 (broadcastInDim S16384x1 ![0] bcast_S16384_S16384x1_0
    (maximumf (broadcastInDim S16384 ![] bcast_S_S16384 (constant S_ .f32 0xFF800000#32)) r))

/-- Each row's sum of exponentials. -/
def sumExp (s : (⟨S16384x1000, .f32⟩ : BufTy).Contents (Elt F)) : (⟨S16384, .f32⟩ : BufTy).Contents (Elt F) :=
  Host.reduceAdd (Host.exp s) (constant S_ .f32 0x00000000#32) reducesTo_S16384x1000_S16384_d1 h_S_

/-- A row less the logarithm of a per-row number. -/
def lessLog (s : (⟨S16384x1000, .f32⟩ : BufTy).Contents (Elt F)) (t : (⟨S16384, .f32⟩ : BufTy).Contents (Elt F)) : (⟨S16384x1000, .f32⟩ : BufTy).Contents (Elt F) :=
  subf s (broadcastInDim S16384x1000 ![0, 1] bcast_S16384x1_S16384x1000_0_1
    (Host.log (broadcastInDim S16384x1 ![0] bcast_S16384_S16384x1_0 t)))

/-- The log-softmax of each row: the row less its maximum, less the logarithm of the sum of its exponentials. -/
def logSoftmax (z : (⟨S16384x1000, .f32⟩ : BufTy).Contents (Elt F)) : (⟨S16384x1000, .f32⟩ : BufTy).Contents (Elt F) :=
  lessLog (subf z (spreadMax (maxOf z))) (sumExp (subf z (spreadMax (maxOf z))))

/-- The labels as gather indices: a negative label has the row length added to it. -/
def labelIx (t : (⟨S16384, .i32⟩ : BufTy).Contents (Elt F)) : (⟨S16384x1x1, .i32⟩ : BufTy).Contents (Elt F) :=
  shapeCast _ (select (cmpi .slt (broadcastInDim S16384x1 ![0] bcast_S16384_S16384x1_0 t) (broadcastInDim S16384x1 ![] bcast_S_S16384x1 (constantI S_ 32 0#32)))
    (addi (broadcastInDim S16384x1 ![0] bcast_S16384_S16384x1_0 t) (broadcastInDim S16384x1 ![] bcast_S_S16384x1 (constantI S_ 32 1000#32)))
    (broadcastInDim S16384x1 ![0] bcast_S16384_S16384x1_0 t)) shapeCasts_S16384x1_S16384x1x1

/-- Where an index is at least `0`. -/
def ixGe (i : (⟨S16384x1x1, .i32⟩ : BufTy).Contents (Elt F)) : (⟨S16384x1x1, .i1⟩ : BufTy).Contents (Elt F) :=
  cmpi .sge i (broadcastInDim S16384x1x1 ![] bcast_S_S16384x1x1 (constantI S_ 32 0#32))

/-- Where an index is at most `999`. -/
def ixLe (i : (⟨S16384x1x1, .i32⟩ : BufTy).Contents (Elt F)) : (⟨S16384x1x1, .i1⟩ : BufTy).Contents (Elt F) :=
  cmpi .sle i (broadcastInDim S16384x1x1 ![0, 1, 2] bcast_S1x1x1_S16384x1x1_0_1_2 (broadcastInDim S1x1x1 ![2] bcast_S1_S1x1x1_2 (constantI S1 32 999#32)))

/-- Where two masks both hold, per row. -/
def bothHold (a b : (⟨S16384x1x1, .i1⟩ : BufTy).Contents (Elt F)) : (⟨S16384x1, .i1⟩ : BufTy).Contents (Elt F) :=
  Host.reduce IntOp.andi (andi a b) (constantI S_ 1 1#1) reducesTo_S16384x1x1_S16384x1_d2 h_S_

/-- One entry per row, read at the row's index where the mask holds, NaN elsewhere. -/
def pickAt (k : (⟨S16384x1, .i1⟩ : BufTy).Contents (Elt F)) (i : (⟨S16384x1x1, .i32⟩ : BufTy).Contents (Elt F)) (y : (⟨S16384x1000, .f32⟩ : BufTy).Contents (Elt F)) : (⟨S16384x1, .f32⟩ : BufTy).Contents (Elt F) :=
  select k (Host.gather gather_S16384x1000_S16384x1x1_S16384x1_n_1_0_0_1_2_11 y i)
    (broadcastInDim S16384x1 ![] bcast_S_S16384x1 (constant S_ .f32 0x7FC00000#32))

/-- One entry per row, read at the row's index; NaN where the index is outside `0 … 999`. -/
def pick (i : (⟨S16384x1x1, .i32⟩ : BufTy).Contents (Elt F)) (y : (⟨S16384x1000, .f32⟩ : BufTy).Contents (Elt F)) : (⟨S16384x1, .f32⟩ : BufTy).Contents (Elt F) :=
  pickAt (bothHold (ixGe i) (ixLe i)) i y

/-- The negated entries' sum over the number of rows. -/
def negMean (p : (⟨S16384x1, .f32⟩ : BufTy).Contents (Elt F)) : (⟨S_, .f32⟩ : BufTy).Contents (Elt F) :=
  Host.divf (Host.reduceAdd (Host.negf (shapeCast _ p shapeCasts_S16384x1_S16384)) (constant S_ .f32 0x00000000#32) reducesTo_S16384_S_d0 h_S_)
    (constant S_ .f32 0x46800000#32)

/-! ## The stretches of the operation list -/

/-- Operations 0–10: the logits. -/
abbrev s₁ : List (HloOp τ sig (Elt F)) := (ops (F := F)).take 11
/-- Operations 11–12: the rows' maxima. -/
abbrev s₂ : List (HloOp τ sig (Elt F)) := ((ops (F := F)).drop 11).take 2
/-- Operations 13–17: the maxima spread back over the rows. -/
abbrev s₃ : List (HloOp τ sig (Elt F)) := ((ops (F := F)).drop 13).take 5
/-- Operations 18–21: the rows less their maxima, and the sums of their exponentials. -/
abbrev s₄ : List (HloOp τ sig (Elt F)) := ((ops (F := F)).drop 18).take 4
/-- Operations 22–25: the log-softmax. -/
abbrev s₅ : List (HloOp τ sig (Elt F)) := ((ops (F := F)).drop 22).take 4
/-- Operations 26–34: the indices. -/
abbrev s₆ : List (HloOp τ sig (Elt F)) := ((ops (F := F)).drop 26).take 9
/-- Operations 35–41: the two range masks. -/
abbrev s₇ : List (HloOp τ sig (Elt F)) := ((ops (F := F)).drop 35).take 7
/-- Operations 42–44: their conjunction, per row. -/
abbrev s₈ : List (HloOp τ sig (Elt F)) := ((ops (F := F)).drop 42).take 3
/-- Operations 45–48: the read. -/
abbrev s₉ : List (HloOp τ sig (Elt F)) := ((ops (F := F)).drop 45).take 4
/-- Operations 49–54: the mean. -/
abbrev s₁₀ : List (HloOp τ sig (Elt F)) := (ops (F := F)).drop 49

/-- The first half of the list: everything up to the log-softmax. -/
abbrev half₁ : List (HloOp τ sig (Elt F)) := (ops (F := F)).take 26
/-- The second half: the indices, the read and the mean. -/
abbrev half₂ : List (HloOp τ sig (Elt F)) := (ops (F := F)).drop 26

set_option maxRecDepth 8192 in
theorem half₁_cut : (half₁ : List (HloOp τ sig (Elt F))) = s₁ ++ (s₂ ++ (s₃ ++ (s₄ ++ s₅))) := rfl
set_option maxRecDepth 8192 in
theorem half₂_cut : (half₂ : List (HloOp τ sig (Elt F))) = s₆ ++ (s₇ ++ (s₈ ++ (s₉ ++ s₁₀))) := rfl
set_option maxRecDepth 8192 in
theorem ops_cut : (ops : List (HloOp τ sig (Elt F))) = half₁ ++ half₂ := rfl

/-! ## Each stretch's value, from any contents

A stretch is cut open to its operations; each operation's result is rewritten at its own buffer to its function's
value and at any other buffer to what was there; what is left is the stage's function by unfolding (a typed
reference's transport is the identity at a literal buffer), or, at a stretch that ends in a general reduction,
by the transport lemma. -/

set_option maxRecDepth 8192 in
/-- After the first stretch the logits' buffer holds the logits of the two arguments. -/
theorem s₁_v5 (W : Valuation τ sig (Elt F)) :
    after s₁ W (Proc.devRef .tc main_v5)
      = logits (W (Proc.devRef .tc main_arg0)) (W (Proc.devRef .tc main_arg1)) := by
  simp only [s₁, ops, List.take_succ_cons, List.take_zero, List.drop_succ_cons, List.drop_zero]
  after_results
  rfl

set_option maxRecDepth 8192 in
/-- After the second stretch its result holds the row maxima of the logits' buffer. -/
theorem s₂_v0 (W : Valuation τ sig (Elt F)) :
    after s₂ W (Proc.devRef .tc main_call1_v0)
      = maxOf (W (Proc.devRef .tc main_v5)) := by
  simp only [s₂, ops, List.take_succ_cons, List.take_zero, List.drop_succ_cons, List.drop_zero]
  after_results
  exact cast_eq _ _

set_option maxRecDepth 8192 in
/-- The second stretch does not write the logits. -/
theorem s₂_v5 (W : Valuation τ sig (Elt F)) :
    after s₂ W (Proc.devRef .tc main_v5) = W (Proc.devRef .tc main_v5) := by
  simp only [s₂, ops, List.take_succ_cons, List.take_zero, List.drop_succ_cons, List.drop_zero]
  after_results

set_option maxRecDepth 8192 in
/-- After the third stretch its result holds the maxima spread back over the rows. -/
theorem s₃_v4 (W : Valuation τ sig (Elt F)) :
    after s₃ W (Proc.devRef .tc main_call1_v4)
      = spreadMax (W (Proc.devRef .tc main_call1_v0)) := by
  simp only [s₃, ops, List.take_succ_cons, List.take_zero, List.drop_succ_cons, List.drop_zero]
  after_results
  rfl

set_option maxRecDepth 8192 in
/-- The third stretch does not write the logits. -/
theorem s₃_v5 (W : Valuation τ sig (Elt F)) :
    after s₃ W (Proc.devRef .tc main_v5) = W (Proc.devRef .tc main_v5) := by
  simp only [s₃, ops, List.take_succ_cons, List.take_zero, List.drop_succ_cons, List.drop_zero]
  after_results

set_option maxRecDepth 8192 in
/-- After the fourth stretch: the logits less the spread maxima … -/
theorem s₄_v5 (W : Valuation τ sig (Elt F)) :
    after s₄ W (Proc.devRef .tc main_call1_v5)
      = subf (W (Proc.devRef .tc main_v5)) (W (Proc.devRef .tc main_call1_v4)) := by
  simp only [s₄, ops, List.take_succ_cons, List.take_zero, List.drop_succ_cons, List.drop_zero]
  after_results
  rfl

set_option maxRecDepth 8192 in
/-- … and the row sums of their exponentials. -/
theorem s₄_v7 (W : Valuation τ sig (Elt F)) :
    after s₄ W (Proc.devRef .tc main_call1_v7)
      = sumExp (subf (W (Proc.devRef .tc main_v5)) (W (Proc.devRef .tc main_call1_v4))) := by
  simp only [s₄, ops, List.take_succ_cons, List.take_zero, List.drop_succ_cons, List.drop_zero]
  after_results
  rfl

set_option maxRecDepth 8192 in
/-- After the fifth stretch its result holds the shifted rows less the logarithms of the sums. -/
theorem s₅_v6 (W : Valuation τ sig (Elt F)) :
    after s₅ W (Proc.devRef .tc main_v6)
      = lessLog (W (Proc.devRef .tc main_call1_v5)) (W (Proc.devRef .tc main_call1_v7)) := by
  simp only [s₅, ops, List.take_succ_cons, List.take_zero, List.drop_succ_cons, List.drop_zero]
  after_results
  rfl

set_option maxRecDepth 8192 in
/-- After the sixth stretch the index buffer holds the labels' indices. -/
theorem s₆_ix (W : Valuation τ sig (Elt F)) :
    after s₆ W (Proc.devRef .tc main_call2_v5)
      = labelIx (W (Proc.devRef .tc main_arg2)) := by
  simp only [s₆, ops, List.take_succ_cons, List.take_zero, List.drop_succ_cons, List.drop_zero]
  after_results
  rfl

set_option maxRecDepth 8192 in
/-- The sixth stretch does not write the log-softmax. -/
theorem s₆_v6 (W : Valuation τ sig (Elt F)) :
    after s₆ W (Proc.devRef .tc main_v6) = W (Proc.devRef .tc main_v6) := by
  simp only [s₆, ops, List.take_succ_cons, List.take_zero, List.drop_succ_cons, List.drop_zero]
  after_results

set_option maxRecDepth 8192 in
/-- After the seventh stretch: the lower range mask … -/
theorem s₇_ge (W : Valuation τ sig (Elt F)) :
    after s₇ W (Proc.devRef .tc main_call2_v7)
      = ixGe (W (Proc.devRef .tc main_call2_v5)) := by
  simp only [s₇, ops, List.take_succ_cons, List.take_zero, List.drop_succ_cons, List.drop_zero]
  after_results
  rfl

set_option maxRecDepth 8192 in
/-- … and the upper one. -/
theorem s₇_le (W : Valuation τ sig (Elt F)) :
    after s₇ W (Proc.devRef .tc main_call2_v10)
      = ixLe (W (Proc.devRef .tc main_call2_v5)) := by
  simp only [s₇, ops, List.take_succ_cons, List.take_zero, List.drop_succ_cons, List.drop_zero]
  after_results
  rfl

set_option maxRecDepth 8192 in
/-- The seventh stretch writes neither the indices … -/
theorem s₇_ix (W : Valuation τ sig (Elt F)) :
    after s₇ W (Proc.devRef .tc main_call2_v5) = W (Proc.devRef .tc main_call2_v5) := by
  simp only [s₇, ops, List.take_succ_cons, List.take_zero, List.drop_succ_cons, List.drop_zero]
  after_results

set_option maxRecDepth 8192 in
/-- … nor the log-softmax. -/
theorem s₇_v6 (W : Valuation τ sig (Elt F)) :
    after s₇ W (Proc.devRef .tc main_v6) = W (Proc.devRef .tc main_v6) := by
  simp only [s₇, ops, List.take_succ_cons, List.take_zero, List.drop_succ_cons, List.drop_zero]
  after_results

set_option maxRecDepth 8192 in
/-- After the eighth stretch its result holds, per row, whether both masks hold. -/
theorem s₈_k (W : Valuation τ sig (Elt F)) :
    after s₈ W (Proc.devRef .tc main_call2_v12)
      = bothHold (W (Proc.devRef .tc main_call2_v7)) (W (Proc.devRef .tc main_call2_v10)) := by
  simp only [s₈, ops, List.take_succ_cons, List.take_zero, List.drop_succ_cons, List.drop_zero]
  after_results
  exact cast_eq _ _

set_option maxRecDepth 8192 in
/-- The eighth stretch writes neither the indices … -/
theorem s₈_ix (W : Valuation τ sig (Elt F)) :
    after s₈ W (Proc.devRef .tc main_call2_v5) = W (Proc.devRef .tc main_call2_v5) := by
  simp only [s₈, ops, List.take_succ_cons, List.take_zero, List.drop_succ_cons, List.drop_zero]
  after_results

set_option maxRecDepth 8192 in
/-- … nor the log-softmax. -/
theorem s₈_v6 (W : Valuation τ sig (Elt F)) :
    after s₈ W (Proc.devRef .tc main_v6) = W (Proc.devRef .tc main_v6) := by
  simp only [s₈, ops, List.take_succ_cons, List.take_zero, List.drop_succ_cons, List.drop_zero]
  after_results

set_option maxRecDepth 8192 in
/-- After the ninth stretch its result holds the entries read at the indices under the mask. -/
theorem s₉_v8 (W : Valuation τ sig (Elt F)) :
    after s₉ W (Proc.devRef .tc main_v8)
      = pickAt (W (Proc.devRef .tc main_call2_v12)) (W (Proc.devRef .tc main_call2_v5)) (W (Proc.devRef .tc main_v6)) := by
  simp only [s₉, ops, List.take_succ_cons, List.take_zero, List.drop_succ_cons, List.drop_zero]
  after_results
  rfl

set_option maxRecDepth 8192 in
/-- After the last stretch the result holds the negative mean of the entries. -/
theorem s₁₀_v12 (W : Valuation τ sig (Elt F)) :
    after s₁₀ W (Proc.devRef .tc main_v12)
      = negMean (W (Proc.devRef .tc main_v8)) := by
  simp only [s₁₀, ops, List.take_succ_cons, List.take_zero, List.drop_succ_cons, List.drop_zero]
  after_results
  rfl

/-! ## The two halves, and the whole fold -/

/-- After the first half the log-softmax's buffer holds the log-softmax of the arguments' logits. -/
theorem half₁_v6 (W : Valuation τ sig (Elt F)) :
    after half₁ W (Proc.devRef .tc main_v6)
      = logSoftmax (logits (W (Proc.devRef .tc main_arg0)) (W (Proc.devRef .tc main_arg1))) := by
  rw [half₁_cut, after_concat, after_concat, after_concat, after_concat,
    s₅_v6, s₄_v5, s₄_v7, s₃_v4, s₃_v5, s₂_v0, s₂_v5, s₁_v5]
  rfl

set_option maxRecDepth 8192 in
/-- The first half does not write the labels. -/
theorem half₁_arg2 (W : Valuation τ sig (Elt F)) :
    after half₁ W (Proc.devRef .tc main_arg2) = W (Proc.devRef .tc main_arg2) := by
  simp only [half₁, ops, List.take_succ_cons, List.take_zero, List.drop_succ_cons, List.drop_zero]
  after_results

/-- After the second half the result holds the negative mean of the entries of the incoming log-softmax read at
    the incoming labels' indices. -/
theorem half₂_v12 (W : Valuation τ sig (Elt F)) :
    after half₂ W (Proc.devRef .tc main_v12)
      = negMean (pick (labelIx (W (Proc.devRef .tc main_arg2))) (W (Proc.devRef .tc main_v6))) := by
  rw [half₂_cut, after_concat, after_concat, after_concat, after_concat,
    s₁₀_v12, s₉_v8, s₈_k, s₈_ix, s₈_v6, s₇_ge, s₇_le, s₇_ix, s₇_v6, s₆_ix, s₆_v6]
  rfl

set_option maxRecDepth 8192 in
/-- From the launch contents the result buffer ends at the reference's composed term: the stages composed, which is
    that term once the stages' names are unfolded. -/
theorem after_ops_v12 (m : (ℓ : Loc nD τ sig) → Buf (Elt F) ℓ) (c : Dev nD) :
    after ops (launchContents m c) (Proc.devRef .tc main_v12) = res_main_v12 m c := by
  rw [ops_cut, after_concat, half₂_v12, half₁_arg2, half₁_v6]
  rfl

end Cert.ReferenceIdeal.Value.Fold

end
-- ==== Proof.RowSpec.lean ====
/-
  The per-row mathematics of the loss, over the extended reals.

  For one sample (a row `x` of 1024 features, finite, not all zero) and 1000 class prototypes `P c` (finite rows of
  1024 features) the loss is the cross entropy of the softmax of the cosine-type logits
  `ℓ c = ∑ d, (x d / ‖x‖) · P c d` at the sample's label `y`:  `log (∑ c, exp (ℓ c - M)) + M - ℓ y`  with `M = max ℓ`.

  The two programs arrange it differently.
  * One normalises by the product with `(∑ x²)^(-1/2)`, pads the class axis from 1000 to 1024 columns filled with
    `-∞` (so a padded column adds `exp (-∞) = 0` to the sum and never wins the maximum), and picks the label's logit by
    a sum against the indicator of the label's column (`kerRow`, `kerLogit`).
  * The other normalises by the quotient with `(∑ x²)^(1/2)`, divides the logits by one, forms the log-softmax
    `(ℓ c - M) - log ∑ exp (ℓ c - M)` over the 1000 classes and negates its entry at the label (`refRow`, `refLogit`).
  For finite data with `∑ x² > 0` the two are the same extended real (proved where these definitions are used): every
  intermediate is then a real number, the maximum over the padded row is the maximum over the classes, and the rest is
  arithmetic in `ℝ`.
-/
import Idealize.ShloMosaic.PureOps.Ideal
import Idealize.ShloMosaic.PureOps.Ideal.Laws
import Idealize.ShloMosaic.Lib.ValueIdx

noncomputable section

open scoped BigOperators

namespace Cert.CtLoss

open Idealize.ShloMosaic

/-- A row's logit against one prototype row, normalised by the PRODUCT with the reciprocal square root of the row's
    sum of squares. -/
def kerLogit (x p : Fin 1024 → EReal) : EReal :=
  ∑ d, (x d * Ideal.rsqrt (∑ e, x e * x e)) * p d

/-- A row's logit against one prototype row, normalised by the QUOTIENT with the square root of the row's sum of
    squares, then divided by one. -/
def refLogit (x p : Fin 1024 → EReal) : EReal :=
  Ideal.div (∑ d, Ideal.div (x d) (Ideal.sqrt (∑ e, x e * x e)) * p d) 1

/-- Log-sum-exp of a padded row of 1024 logits about its maximum, minus the sum of the logits on the columns `hit`
    marks. -/
def kerRow (L : Fin 1024 → EReal) (hit : Fin 1024 → Prop) [DecidablePred hit] : EReal :=
  (Ideal.log (∑ c, Ideal.exp (L c - (Finset.univ : Finset (Fin 1024)).fold max ⊥ L))
      + (Finset.univ : Finset (Fin 1024)).fold max ⊥ L)
    - ∑ c, (if hit c then L c else 0)

/-- Minus the log-softmax of a row of 1000 logits at the class `y`. -/
def refRow (L : Fin 1000 → EReal) (y : Fin 1000) : EReal :=
  -((L y - (Finset.univ : Finset (Fin 1000)).fold max ⊥ L)
      - Ideal.log (∑ c, Ideal.exp (L c - (Finset.univ : Finset (Fin 1000)).fold max ⊥ L)))

/-! ## The two loss vectors over the argument arrays -/

open Idealize.ShloMosaic.ValueIdx

/-- A label word as a class: its unsigned value reduced below 1000 (for a word in the label range, the word itself). -/
def labOf (w : BitVec 32) : Fin 1000 := ⟨w.toNat % 1000, Nat.mod_lt _ (by norm_num)⟩

/-- The per-sample losses in the padded arrangement: sample `i`'s row of `x0` against the 1000 rows of `x1`, columns
    1000 … 1023 at `-∞`, the label's column found by comparing the column's number, as a 32-bit word, with the label
    word. -/
def kerLoss (x0 : (⟨2, ![16384, 1024]⟩ : Shape).Idx → EReal) (x1 : (⟨2, ![1000, 1024]⟩ : Shape).Idx → EReal)
    (x2 : (⟨1, ![16384]⟩ : Shape).Idx → BitVec 32) : (⟨1, ![16384]⟩ : Shape).Idx → EReal :=
  fun i => kerRow
    (fun c => if h : c.val < 1000 then kerLogit (fun d => x0 (ix2 (i 0) d)) (fun d => x1 (ix2 (⟨c.val, h⟩ : Fin 1000) d)) else ⊥)
    (fun c => BitVec.ofNat 32 c.val = x2 i)

/-- The per-sample losses in the log-softmax arrangement, at the class the label word names. -/
def refLoss (x0 : (⟨2, ![16384, 1024]⟩ : Shape).Idx → EReal) (x1 : (⟨2, ![1000, 1024]⟩ : Shape).Idx → EReal)
    (x2 : (⟨1, ![16384]⟩ : Shape).Idx → BitVec 32) : (⟨1, ![16384]⟩ : Shape).Idx → EReal :=
  fun i => refRow (fun c => refLogit (fun d => x0 (ix2 (i 0) d)) (fun d => x1 (ix2 c d))) (labOf (x2 i))

end Cert.CtLoss

end
-- ==== Proof.RefRows.lean ====
/-
  The reference's per-sample losses, read off its staged operations: the vector it sums and divides by 16384 is,
  sample by sample, minus the log-softmax of the sample's logits at its label.
-/
import proofs.«412424_j50517405335943_3_alg».proof.Proof.RefRead
import proofs.«412424_j50517405335943_3_alg».proof.Proof.RowSpec
import Idealize.ShloMosaic.Lib.ValueIdx
import Idealize.ShloMosaic.Lib.Pipeline.Value
import Idealize.ShloMosaic.PureOps.Ideal.Laws

noncomputable section

open scoped BigOperators

namespace Cert.ReferenceIdeal.RefRows

open Cert.ReferenceIdeal Cert.ReferenceIdeal.Gen Cert.ReferenceIdeal.Read Cert.CtLoss
open Idealize.ShloMosaic Idealize.ShloMosaic.ValueIdx

/-! ## The constant words -/

/-- The word 0x3F800000 is the real one. -/
theorem word_one : Ideal.ofBits .f32 0x3F800000#32 = (1 : EReal) := by
  rw [show (1 : EReal) = ((1 : ℝ) : EReal) by norm_cast]
  simp [Ideal.ofBits, Ideal.ieee, -EReal.coe_mul]; norm_num

/-- The word 0xFF800000 is minus infinity. -/
theorem word_negInf : Ideal.ofBits .f32 0xFF800000#32 = (⊥ : EReal) := by
  simp [Ideal.ofBits, Ideal.ieee]

/-! ## The logits -/

/-- The broadcast norm at (r, k) is the square root of row r's sum of squares, the sum starting from the word zero. -/
theorem norm_apply (x0 : (⟨S16384x1024, .f32⟩ : BufTy).Contents (Elt Ideal)) (r : Fin 16384) (k : Fin 1024) :
    val_main_v1 (F := Ideal) x0 (ix2 r k) = Ideal.sqrt (∑ e : Fin 1024, x0 (ix2 r e) * x0 (ix2 r e)) := by
  have h1 : idx_main_v1 (ix2 r k) = ix2 r (0 : Fin 1) :=
    funext fun a => Fin.ext (by match a with | ⟨0, _⟩ => rfl | ⟨1, _⟩ => rfl)
  have h2 : idx_main_call0_v2 (ix2 r (0 : Fin 1)) = ix1 r :=
    funext fun a => Fin.ext (by match a with | ⟨0, _⟩ => rfl)
  have h3 : ∀ e : Fin 1024, idx_main_call0_v1 (ix1 r) e = ix2 r e := fun e =>
    funext fun a => Fin.ext (by match a with | ⟨0, _⟩ => rfl | ⟨1, _⟩ => rfl)
  rw [val_main_v1_apply, h1, val_main_v0_apply, val_main_call0_v2_apply, h2, val_main_call0_v1_apply,
    val_main_call0_cst_apply]
  simp only [Ideal.ofBits_def, Ideal.hostUnary_sqrt_def, Ideal.ofBits_zero_f32, zero_add]
  refine congrArg Ideal.sqrt (Finset.sum_congr rfl fun e _ => ?_)
  rw [h3, val_main_call0_v0_apply]
  rfl

/-- Entry (r, c) of the divided product is the quotient-normalised logit of row r of the samples against row c of
    the prototypes: the broadcast divisor is the word one. -/
theorem logit_apply (x0 : (⟨S16384x1024, .f32⟩ : BufTy).Contents (Elt Ideal)) (x1 : (⟨S1000x1024, .f32⟩ : BufTy).Contents (Elt Ideal))
    (r : Fin 16384) (c : Fin 1000) :
    val_main_v5 (F := Ideal) x0 x1 (ix2 r c) = refLogit (fun d => x0 (ix2 r d)) (fun d => x1 (ix2 c d)) := by
  have hl : ∀ k : Fin 1024, lidx_main_v3 (ix2 r c) k = ix2 r k := fun k =>
    funext fun a => Fin.ext (by match a with | ⟨0, _⟩ => rfl | ⟨1, _⟩ => rfl)
  have hr : ∀ k : Fin 1024, ridx_main_v3 (ix2 r c) k = ix2 c k := fun k =>
    funext fun a => Fin.ext (by match a with | ⟨0, _⟩ => rfl | ⟨1, _⟩ => rfl)
  rw [val_main_v5_apply, val_main_v4_apply, val_main_cst_apply, val_main_v3_apply]
  unfold refLogit
  simp only [Ideal.hostDivf_def, Ideal.ofBits_def, word_one]
  refine congrArg (fun s => Ideal.div s 1) (Finset.sum_congr rfl fun k _ => ?_)
  rw [hl, hr, val_main_v2_apply, norm_apply]
  rfl

/-! ## The row maximum -/

/-- The reduced index r with class k put back on the dropped axis is (r, k). -/
theorem lift_row (h : S16384x1000.Reduces [1] S16384) (r : Fin 16384) (k : Fin (S16384x1000.size 1)) :
    h.lift (ix1 r) k = ix2 r (⟨k.val, k.isLt⟩ : Fin 1000) := by
  funext c; apply Fin.ext
  match c with
  | ⟨0, _⟩ => rfl
  | ⟨1, _⟩ => rfl

/-- Row r's maximum: the reduce from minus infinity folds the maximum over the 1000 logits, and the further maximum
    with a broadcast minus infinity changes nothing. -/
theorem rowMax_apply (x0 : (⟨S16384x1024, .f32⟩ : BufTy).Contents (Elt Ideal)) (x1 : (⟨S1000x1024, .f32⟩ : BufTy).Contents (Elt Ideal))
    (r : Fin 16384) :
    val_main_call1_v2 (F := Ideal) x0 x1 (ix1 r)
      = (Finset.univ : Finset (Fin 1000)).fold max ⊥ (fun c => refLogit (fun d => x0 (ix2 r d)) (fun d => x1 (ix2 c d))) := by
  have h : S16384x1000.Reduces [1] S16384 := by decide
  rw [val_main_call1_v2_apply, val_main_call1_v1_apply, val_main_call1_cst_0_apply]
  simp only [Ideal.maximumf_def, Ideal.ofBits_def, word_negInf]
  rw [max_eq_right bot_le]
  unfold val_main_call1_v0
  rw [Host.reduce_eq_fold_single FloatOps.maximumf _ _ reducesTo_S16384x1000_S16384_d1 h h_S_]
  have hf : (val_main_v5 (F := Ideal) x0 x1 ∘ h.lift (ix1 r))
      = fun k : Fin 1000 => refLogit (fun d => x0 (ix2 r d)) (fun d => x1 (ix2 k d)) := funext fun k => by
    show val_main_v5 (F := Ideal) x0 x1 (h.lift (ix1 r) k) = _
    rw [lift_row, logit_apply]
    rfl
  rw [hf, val_main_call1_cst_apply]
  simp only [Ideal.ofBits_def, word_negInf]
  rfl

/-! ## The log-softmax -/

/-- Entry (r, c) of the shifted logits: the logit minus the row maximum, which reaches it through two broadcasts. -/
theorem shifted_apply (x0 : (⟨S16384x1024, .f32⟩ : BufTy).Contents (Elt Ideal)) (x1 : (⟨S1000x1024, .f32⟩ : BufTy).Contents (Elt Ideal))
    (r : Fin 16384) (c : Fin 1000) :
    val_main_call1_v5 (F := Ideal) x0 x1 (ix2 r c)
      = refLogit (fun d => x0 (ix2 r d)) (fun d => x1 (ix2 c d))
        - (Finset.univ : Finset (Fin 1000)).fold max ⊥ (fun c' => refLogit (fun d => x0 (ix2 r d)) (fun d => x1 (ix2 c' d))) := by
  have h4 : idx_main_call1_v4 (ix2 r c) = ix2 r (0 : Fin 1) :=
    funext fun a => Fin.ext (by match a with | ⟨0, _⟩ => rfl | ⟨1, _⟩ => rfl)
  have h3 : idx_main_call1_v3 (ix2 r (0 : Fin 1)) = ix1 r :=
    funext fun a => Fin.ext (by match a with | ⟨0, _⟩ => rfl)
  rw [val_main_call1_v5_apply, val_main_call1_v4_apply, h4, val_main_call1_v3_apply, h3, rowMax_apply, logit_apply]
  rfl

/-- Entry (r, c) of the broadcast log-sum: the logarithm of the sum, from the word zero, of the exponentials of row
    r's shifted logits. -/
theorem logSum_apply (x0 : (⟨S16384x1024, .f32⟩ : BufTy).Contents (Elt Ideal)) (x1 : (⟨S1000x1024, .f32⟩ : BufTy).Contents (Elt Ideal))
    (r : Fin 16384) (c : Fin 1000) :
    val_main_call1_v10 (F := Ideal) x0 x1 (ix2 r c)
      = Ideal.log (∑ c' : Fin 1000, Ideal.exp (refLogit (fun d => x0 (ix2 r d)) (fun d => x1 (ix2 c' d))
        - (Finset.univ : Finset (Fin 1000)).fold max ⊥ (fun c'' => refLogit (fun d => x0 (ix2 r d)) (fun d => x1 (ix2 c'' d))))) := by
  have h10 : idx_main_call1_v10 (ix2 r c) = ix2 r (0 : Fin 1) :=
    funext fun a => Fin.ext (by match a with | ⟨0, _⟩ => rfl | ⟨1, _⟩ => rfl)
  have h8 : idx_main_call1_v8 (ix2 r (0 : Fin 1)) = ix1 r :=
    funext fun a => Fin.ext (by match a with | ⟨0, _⟩ => rfl)
  have h7 : ∀ k : Fin 1000, idx_main_call1_v7 (ix1 r) k = ix2 r k := fun k =>
    funext fun a => Fin.ext (by match a with | ⟨0, _⟩ => rfl | ⟨1, _⟩ => rfl)
  rw [val_main_call1_v10_apply, h10, val_main_call1_v9_apply, val_main_call1_v8_apply, h8, val_main_call1_v7_apply,
    val_main_call1_cst_1_apply]
  simp only [Ideal.ofBits_def, Ideal.hostUnary_log_def, Ideal.ofBits_zero_f32, zero_add]
  refine congrArg Ideal.log (Finset.sum_congr rfl fun k _ => ?_)
  rw [h7, val_main_call1_v6_apply, shifted_apply]
  rfl

/-- Entry (r, c) of the log-softmax: the shifted logit minus the log-sum. -/
theorem logSoftmax_apply (x0 : (⟨S16384x1024, .f32⟩ : BufTy).Contents (Elt Ideal)) (x1 : (⟨S1000x1024, .f32⟩ : BufTy).Contents (Elt Ideal))
    (r : Fin 16384) (c : Fin 1000) :
    val_main_v6 (F := Ideal) x0 x1 (ix2 r c)
      = (refLogit (fun d => x0 (ix2 r d)) (fun d => x1 (ix2 c d))
          - (Finset.univ : Finset (Fin 1000)).fold max ⊥ (fun c' => refLogit (fun d => x0 (ix2 r d)) (fun d => x1 (ix2 c' d))))
        - Ideal.log (∑ c' : Fin 1000, Ideal.exp (refLogit (fun d => x0 (ix2 r d)) (fun d => x1 (ix2 c' d))
          - (Finset.univ : Finset (Fin 1000)).fold max ⊥ (fun c'' => refLogit (fun d => x0 (ix2 r d)) (fun d => x1 (ix2 c'' d))))) := by
  rw [val_main_v6_apply, shifted_apply, logSum_apply]
  rfl

/-! ## The label words -/

/-- A word below 1000 read as a signed integer is its unsigned value. -/
theorem toInt_of_lt (w : BitVec 32) (h : w.toNat < 1000) : w.toInt = (w.toNat : Int) :=
  BitVec.toInt_eq_toNat_of_lt (by omega)

/-- A word below 1000 is not negative: the signed test against zero fails. -/
theorem slt_zero (w : BitVec 32) (h : w.toNat < 1000) : IntOp.cmpi .slt w 0#32 = 0#1 := by
  have hb : w.slt 0#32 = false := by
    rw [BitVec.slt_eq_decide, toInt_of_lt w h]
    simp
  unfold IntOp.cmpi
  simp only [hb]
  rfl

/-- A word below 1000 is at least zero as a signed integer. -/
theorem sge_zero (w : BitVec 32) (h : w.toNat < 1000) : IntOp.cmpi .sge w 0#32 = 1#1 := by
  have hb : (0#32 : BitVec 32).sle w = true := by
    rw [BitVec.sle_eq_decide, toInt_of_lt w h]
    simp
  unfold IntOp.cmpi
  simp only [hb]
  rfl

/-- A word below 1000 is at most 999 as a signed integer. -/
theorem sle_max (w : BitVec 32) (h : w.toNat < 1000) : IntOp.cmpi .sle w 999#32 = 1#1 := by
  have hb : w.sle 999#32 = true := by
    rw [BitVec.sle_eq_decide, toInt_of_lt w h, show (999#32 : BitVec 32).toInt = 999 by decide]
    simp only [decide_eq_true_eq]
    omega
  unfold IntOp.cmpi
  simp only [hb]
  rfl

/-- The label column at (r, 0) is sample r's label word. -/
theorem label_apply (x2 : (⟨S16384, .i32⟩ : BufTy).Contents (Elt Ideal)) (r : Fin 16384) :
    val_main_v7 (F := Ideal) x2 (ix2 r (0 : Fin 1)) = x2 (ix1 r) := by
  rw [val_main_v7_apply]
  exact congrArg x2 (funext fun a => Fin.ext (by match a with | ⟨0, _⟩ => rfl))

/-- A label word in range is not negative, so the wrap-around select keeps it. -/
theorem wrapped_apply (x2 : (⟨S16384, .i32⟩ : BufTy).Contents (Elt Ideal)) (r : Fin 16384) (h : (x2 (ix1 r)).toNat < 1000) :
    val_main_call2_v4 (F := Ideal) x2 (ix2 r (0 : Fin 1)) = x2 (ix1 r) := by
  rw [val_main_call2_v4_apply, val_main_call2_v1_apply, label_apply, val_main_call2_v0_apply, val_main_call2_c_apply,
    slt_zero _ h, select_zero]

/-- The start-index array at (r, 0, 0) is sample r's label word. -/
theorem startIdx_apply (x2 : (⟨S16384, .i32⟩ : BufTy).Contents (Elt Ideal)) (r : Fin 16384) (h : (x2 (ix1 r)).toNat < 1000) :
    val_main_call2_v5 (F := Ideal) x2 (ix3 r (0 : Fin 1) (0 : Fin 1)) = x2 (ix1 r) := by
  have h5 : idx_main_call2_v5 (ix3 r (0 : Fin 1) (0 : Fin 1)) = ix2 r (0 : Fin 1) := funext fun a => Fin.ext (by
    match a with
    | ⟨0, _⟩ =>
      show ((r.val * 1 + 0) * 1 + 0) / 1 = r.val
      omega
    | ⟨1, _⟩ => rfl)
  rw [val_main_call2_v5_apply, h5, wrapped_apply x2 r h]

/-- Both range tests pass at a label word in range. -/
theorem inRange_apply (x2 : (⟨S16384, .i32⟩ : BufTy).Contents (Elt Ideal)) (r : Fin 16384) (h : (x2 (ix1 r)).toNat < 1000) :
    val_main_call2_v11 (F := Ideal) x2 (ix3 r (0 : Fin 1) (0 : Fin 1)) = 1#1 := by
  rw [val_main_call2_v11_apply, val_main_call2_v7_apply, val_main_call2_v10_apply, startIdx_apply x2 r h,
    val_main_call2_v6_apply, val_main_call2_c_2_apply, val_main_call2_v9_apply, val_main_call2_v8_apply,
    val_main_call2_c_1_apply, sge_zero _ h, sle_max _ h]
  rfl

/-- The reduced index (r, 0) with the unit axis's one coordinate put back is (r, 0, 0). -/
theorem lift_unit (h : S16384x1x1.Reduces [2] S16384x1) (r : Fin 16384) (k : Fin (S16384x1x1.size 2)) :
    h.lift (ix2 r (0 : Fin 1)) k = ix3 r (0 : Fin 1) (0 : Fin 1) := by
  funext c; apply Fin.ext
  match c with
  | ⟨0, _⟩ => rfl
  | ⟨1, _⟩ => rfl
  | ⟨2, _⟩ =>
    show k.val = 0
    have := k.isLt
    have e : S16384x1x1.size 2 = 1 := rfl
    omega

/-- The and-reduce over the unit axis, from the word true, of a passed range test is true. -/
theorem inRangeAll_apply (x2 : (⟨S16384, .i32⟩ : BufTy).Contents (Elt Ideal)) (r : Fin 16384) (h : (x2 (ix1 r)).toNat < 1000) :
    val_main_call2_v12 (F := Ideal) x2 (ix2 r (0 : Fin 1)) = 1#1 := by
  have hr : S16384x1x1.Reduces [2] S16384x1 := by decide
  unfold val_main_call2_v12
  rw [Host.reduce_eq_fold_single IntOp.andi _ _ reducesTo_S16384x1x1_S16384x1_d2 hr h_S_]
  have hf : (val_main_call2_v11 (F := Ideal) x2 ∘ hr.lift (ix2 r (0 : Fin 1))) = fun _ : Fin 1 => (1#1 : BitVec 1) :=
    funext fun k => by
      show val_main_call2_v11 (F := Ideal) x2 (hr.lift (ix2 r (0 : Fin 1)) k) = _
      rw [lift_unit, inRange_apply x2 r h]
  rw [hf, val_main_call2_c_3_apply]
  show Finset.fold IntOp.andi (1#1 : BitVec 1) (fun _ : Fin 1 => (1#1 : BitVec 1)) (Finset.univ : Finset (Fin 1)) = 1#1
  rw [Finset.univ_unique, Finset.fold_singleton]
  rfl

/-! ## The gather at the label -/

/-- The gather's dimension numbers: operand [16384, 1000], start indices [16384, 1, 1], result [16384, 1]; axis 0 of the
    operand a batching axis paired with axis 0 of the start indices, axis 1 collapsed and named by the start index
    map, the index vector on axis 2, slice sizes [1, 1]. -/
abbrev labelDims : GatherDims S16384x1000 S16384x1x1 S16384x1 := gather_S16384x1000_S16384x1x1_S16384x1_n_1_0_0_1_2_11

/-- The start-indices index at which result index (r, 0) reads the one component of its start index is (r, 0, 0). -/
theorem siIdx_apply (r : Fin 16384) (p : List.idxOf (1 : Fin S16384x1000.rank) labelDims.startIndexMap < labelDims.startIndexMap.length) :
    labelDims.siIdx (ix2 r (0 : Fin 1)) ⟨List.idxOf (1 : Fin S16384x1000.rank) labelDims.startIndexMap, p⟩
      = ix3 r (0 : Fin 1) (0 : Fin 1) := by
  funext b; refine Fin.ext ?_
  match b with
  | ⟨0, _⟩ => rfl
  | ⟨1, _⟩ => rfl
  | ⟨2, _⟩ => rfl

/-- THE GATHER AT (r, 0): axis 0 is a batching axis and carries the row r; axis 1 is collapsed and carries the start
    index, the label word read signed and clamped into 0 … 999, which for a word in range is the word's class. -/
theorem gather_apply (x0 : (⟨S16384x1024, .f32⟩ : BufTy).Contents (Elt Ideal)) (x1 : (⟨S1000x1024, .f32⟩ : BufTy).Contents (Elt Ideal))
    (x2 : (⟨S16384, .i32⟩ : BufTy).Contents (Elt Ideal)) (r : Fin 16384) (h : (x2 (ix1 r)).toNat < 1000) :
    val_main_call2_v13 (F := Ideal) x0 x1 x2 (ix2 r (0 : Fin 1))
      = val_main_v6 (F := Ideal) x0 x1 (ix2 r (labOf (x2 (ix1 r)))) := by
  unfold val_main_call2_v13 Host.gather
  refine congrArg (val_main_v6 (F := Ideal) x0 x1) (funext fun a => Fin.ext ?_)
  have hb0 : (0 : Fin S16384x1000.rank) ∈ labelDims.operandBatchingDims := List.mem_singleton.mpr rfl
  have hb1 : (1 : Fin S16384x1000.rank) ∉ labelDims.operandBatchingDims := by decide
  have hc1 : (1 : Fin S16384x1000.rank) ∈ labelDims.collapsedSliceDims := List.mem_singleton.mpr rfl
  have hm1 : (1 : Fin S16384x1000.rank) ∈ labelDims.startIndexMap := List.mem_singleton.mpr rfl
  match a with
  | ⟨0, _⟩ =>
    show labelDims.start (ix2 r (0 : Fin 1)) (val_main_call2_v5 (F := Ideal) x2) 0
        + labelDims.batchCoord (ix2 r (0 : Fin 1)) 0 + labelDims.offCoord (ix2 r (0 : Fin 1)) 0 = r.val
    rw [GatherDims.start_batching _ _ _ _ hb0,
      GatherDims.offCoord_eq_zero _ _ _ (fun hk => ((GatherDims.mem_sKept _ _).mp hk).2 hb0)]
    unfold GatherDims.batchCoord
    rw [dif_pos hb0, Nat.zero_add, Nat.add_zero]
    rfl
  | ⟨1, _⟩ =>
    show labelDims.start (ix2 r (0 : Fin 1)) (val_main_call2_v5 (F := Ideal) x2) 1
        + labelDims.batchCoord (ix2 r (0 : Fin 1)) 1 + labelDims.offCoord (ix2 r (0 : Fin 1)) 1 = (x2 (ix1 r)).toNat % 1000
    rw [GatherDims.batchCoord_eq_zero _ _ _ hb1,
      GatherDims.offCoord_eq_zero _ _ _ (fun hk => ((GatherDims.mem_sKept _ _).mp hk).1 hc1)]
    unfold GatherDims.start
    rw [dif_pos hm1, siIdx_apply, startIdx_apply x2 r h, toInt_of_lt _ h]
    show min ((x2 (ix1 r)).toNat : Int).toNat (1000 - 1) + 0 + 0 = (x2 (ix1 r)).toNat % 1000
    rw [Int.toNat_natCast, Nat.mod_eq_of_lt h]
    omega

/-- The taken column at (r, 0): the range test holds, so the select takes the gathered log-softmax entry at the
    label's class. -/
theorem take_apply (x0 : (⟨S16384x1024, .f32⟩ : BufTy).Contents (Elt Ideal)) (x1 : (⟨S1000x1024, .f32⟩ : BufTy).Contents (Elt Ideal))
    (x2 : (⟨S16384, .i32⟩ : BufTy).Contents (Elt Ideal)) (r : Fin 16384) (h : (x2 (ix1 r)).toNat < 1000) :
    val_main_v8 (F := Ideal) x0 x1 x2 (ix2 r (0 : Fin 1))
      = val_main_v6 (F := Ideal) x0 x1 (ix2 r (labOf (x2 (ix1 r)))) := by
  rw [val_main_v8_apply, inRangeAll_apply x2 r h, select_one, gather_apply x0 x1 x2 r h]

/-- With every label word in the label range, the vector the reference negates, sums and averages is the log-softmax
    arrangement's loss vector of the argument arrays. -/
theorem ref_loss (x0 : (⟨S16384x1024, .f32⟩ : BufTy).Contents (Elt Ideal)) (x1 : (⟨S1000x1024, .f32⟩ : BufTy).Contents (Elt Ideal))
    (x2 : (⟨S16384, .i32⟩ : BufTy).Contents (Elt Ideal)) (h2 : ∀ i, (x2 i).toNat < 1000) :
    val_main_v10 (F := Ideal) x0 x1 x2 = refLoss x0 x1 x2 := by
  funext i
  obtain ⟨r, rfl⟩ : ∃ r : Fin 16384, i = ix1 r := ⟨i 0, eq_ix1 i⟩
  have h9 : idx_main_v9 (ix1 r) = ix2 r (0 : Fin 1) := funext fun a => Fin.ext (by
    match a with
    | ⟨0, _⟩ =>
      show r.val / 1 = r.val
      omega
    | ⟨1, _⟩ => rfl)
  rw [val_main_v10_apply, val_main_v9_apply, h9, take_apply x0 x1 x2 r (h2 _), logSoftmax_apply]
  simp only [Ideal.hostNegf_def, Ideal.negf_def]
  rfl

end Cert.ReferenceIdeal.RefRows

end
-- ==== Proof.LibColumnLayout.lean ====
/-
  Two reads of column layouts at an index, at any extents and any element type.

  A vector of length a viewed as a column [a, 1] has, at (i, u), the vector's entry i: the row-major position of (i, u)
  in [a, 1] is i · 1 + u with u = 0, which is the position of i in [a].
  A column [a, 1] broadcast across [a, b] has, at (p, c), the column's entry (p, 0): the broadcast keeps the coordinate
  on an axis of the same extent and reads 0 on an axis of extent one.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ColumnLayout
-- ==== Proof.KerBody.lean ====
/-
  The kernel body's stored value, row by row: entry (p, 0) of the stored column is the padded arrangement's loss of
  row p of the loaded feature block against the loaded (padded) prototype block, the label's column found by
  comparing each column's number with the loaded label word.
-/
import proofs.«412424_j50517405335943_3_alg».proof.Proof.Gen.KernelIdeal.Skeleton
import proofs.«412424_j50517405335943_3_alg».proof.Proof.RowSpec
import proofs.«412424_j50517405335943_3_alg».proof.Proof.LibColumnLayout
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.KernelIdeal.Body

open Cert.KernelIdeal Cert.KernelIdeal.Gen Cert.CtLoss
open Idealize.ShloMosaic Idealize.ShloMosaic.ValueIdx

/-! ## Reductions along the lanes, read at a row -/

/-- Row p of a length-1024 vector's index, with lane k put back on axis 1, is the matrix index (p, k). -/
theorem lift_row (h : S1024x1024.Reduces [1] S1024) (p : Fin 1024) (k : Fin 1024) :
    h.lift (ix1 p) k = ix2 p k :=
  funext fun a => Fin.ext (by match a with | ⟨0, _⟩ => rfl | ⟨1, _⟩ => rfl)

/-- The lane sum of a [1024, 1024] array, viewed as a column, holds at (p, 0) the sum of row p. -/
theorem rowSum_apply (v : FVec Ideal S1024x1024 .f32) (h : S1024x1024.Reduces [1] S1024) (hφ : FKind.Formats .f32)
    (hacc : (0x00000000#32 : BitVec (FTy.bits .f32)) = FKind.add.neutral .f32 hφ) (hc : S1024.ShapeCasts S1024x1) (p : Fin 1024) :
    shapeCast S1024x1 (multiReduction (F := Ideal) .add [1] S1024 v 0x00000000#32 h hφ hacc) hc (ix2 p (0 : Fin 1))
      = ∑ c : Fin 1024, v (ix2 p c) := by
  refine (ColumnLayout.shapeCast_a_a1_apply _ hc p 0).trans ?_
  refine (Ideal.multiReduction_add_single v _ h hφ hacc (ix1 p)).trans ?_
  show ∑ k : Fin 1024, v (h.lift (ix1 p) k) = _
  exact Finset.sum_congr rfl fun k _ => congrArg v (lift_row h p k)

/-- The IEEE pattern of minus infinity denotes the bottom of the extended reals. -/
theorem ofBits_neg_inf : Ideal.ofBits .f32 0xFF800000#32 = ⊥ := by simp [Ideal.ofBits, Ideal.ieee]

/-- The lane maximum of a [1024, 1024] array from minus infinity, viewed as a column, holds at (p, 0) the
    maximum of row p over the bottom element. -/
theorem rowMax_apply (v : FVec Ideal S1024x1024 .f32) (h : S1024x1024.Reduces [1] S1024) (hφ : FKind.Formats .f32)
    (hacc : (0xFF800000#32 : BitVec (FTy.bits .f32)) = FKind.maximumf.neutral .f32 hφ) (hc : S1024.ShapeCasts S1024x1) (p : Fin 1024) :
    shapeCast S1024x1 (multiReduction (F := Ideal) .maximumf [1] S1024 v 0xFF800000#32 h hφ hacc) hc (ix2 p (0 : Fin 1))
      = (Finset.univ : Finset (Fin 1024)).fold max ⊥ (fun c => v (ix2 p c)) := by
  refine (ColumnLayout.shapeCast_a_a1_apply _ hc p 0).trans ?_
  refine (Ideal.multiReduction_maximumf_single v _ h hφ hacc (ix1 p)).trans ?_
  show (Finset.univ : Finset (Fin 1024)).fold max (Ideal.ofBits .f32 0xFF800000#32) (v ∘ h.lift (ix1 p)) = _
  rw [ofBits_neg_inf]
  exact congrArg (fun f => (Finset.univ : Finset (Fin 1024)).fold max ⊥ f) (funext fun k => congrArg v (lift_row h p k))

/-- The column-number array along axis 1 holds at (p, c) the 32-bit word of c. -/
theorem colNum_apply (h : S1024x1024.Iotas .tc 32 [1]) (p c : Fin 1024) :
    iota .tc S1024x1024 32 [1] h (ix2 p c) = BitVec.ofNat 32 c.val :=
  iota_single_apply .tc S1024x1024 32 1 h (ix2 p c)

/-- The padding constant's name denotes minus infinity. -/
theorem neg_big : Named.named (F := Ideal) Cert.KernelIdeal.κ "neg_big" (φ := .f32) 0xFF333332#32 = ⊥ :=
  IdealRules.named_const.ideal_named_scalar _ _ _ _ rfl

/-! ## The matrix product, read at an entry -/

theorem lhs_logits_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_logits_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_logits_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_logits_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product into the zero array, contracting axis 1 of both operands, holds at (p, c) the sum over k of the left
    operand's (p, k) times the right operand's (c, k). -/
theorem logits_apply (a b : FVec Ideal S1024x1024 .bf16) (p c : Fin 1024) :
    matmul dot_S1024x1024_S1024x1024_S1024x1024_1_1_0_0_n_n none a b (constant (F := Ideal) S1024x1024 .f32 0x00000000#32) (ix2 p c)
      = ∑ k : Fin 1024, a (ix2 p k) * b (ix2 c k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p c) ((ValueIdx.contrEquiv1 dot_S1024x1024_S1024x1024_S1024x1024_1_1_0_0_n_n 1024 rfl rfl).symm k) = ix2 p k := funext fun x => Fin.ext (by
    match x with
    | ⟨0, _⟩ => exact lhs_logits_0 _ _
    | ⟨1, _⟩ => exact (lhs_logits_1 _ _).trans hk)
  have er : dot_S1024x1024_S1024x1024_S1024x1024_1_1_0_0_n_n.rhsIdx (ix2 p c) ((ValueIdx.contrEquiv1 dot_S1024x1024_S1024x1024_S1024x1024_1_1_0_0_n_n 1024 rfl rfl).symm k) = ix2 c k := funext fun x => Fin.ext (by
    match x with
    | ⟨0, _⟩ => exact rhs_logits_0 _ _
    | ⟨1, _⟩ => exact (rhs_logits_1 _ _).trans hk)
  rw [el, er]

/-! ## The two comparisons against a column's number -/

/-- Column c's 32-bit word is below the word 1000, as signed words, exactly when c is below 1000. -/
theorem inRange_iff (c : Fin 1024) : IntOp.cmpi .slt (BitVec.ofNat 32 c.val) 1000#32 = 1#1 ↔ c.val < 1000 := by
  have hc := c.isLt
  have e : (BitVec.ofNat 32 c.val).toNat = c.val := by rw [BitVec.toNat_ofNat]; exact Nat.mod_eq_of_lt (by omega)
  rw [StableHlo.Predicate.slt_iff_toNat (by rw [e]; omega) (by decide), e]
  exact Iff.rfl

/-- A choice on that comparison's bit is the choice on c being below 1000. -/
theorem select_inRange {α : Type} (c : Fin 1024) (A B : α) :
    Scalar.select (IntOp.cmpi .slt (BitVec.ofNat 32 c.val) 1000#32) A B = if c.val < 1000 then A else B := by
  by_cases h : c.val < 1000
  · rw [if_pos h, (inRange_iff c).2 h, select_one]
  · rw [if_neg h, eq_zero_of_ne_one (fun e => h ((inRange_iff c).1 e)), select_zero]

/-- The label column, broadcast across the lanes and compared for equality with the column numbers, has its bit set
    at (p, c) exactly when c's word is row p's label word. -/
theorem hit_apply (lab : IVec S1024x1 32) (hi : S1024x1024.Iotas .tc 32 [1]) (hs : S1024x1.ShapeCasts S1024x1)
    (hb : S1024x1.Broadcasts S1024x1024) (p c : Fin 1024) :
    cmpi .eq (iota .tc S1024x1024 32 [1] hi) (broadcastTo S1024x1024 (shapeCast S1024x1 lab hs) hb) (ix2 p c) = 1#1
      ↔ BitVec.ofNat 32 c.val = lab (ix2 p (0 : Fin 1)) := by
  show IntOp.cmpi .eq (iota .tc S1024x1024 32 [1] hi (ix2 p c))
      (broadcastTo S1024x1024 (shapeCast S1024x1 lab hs) hb (ix2 p c)) = 1#1 ↔ _
  rw [colNum_apply, ColumnLayout.broadcastTo_a1_ab_apply, shapeCast_self]
  exact StableHlo.Predicate.cmpi_eq_iff

/-! ## The masked logits -/

/-- The reciprocal root of the rows' sums of squares, as a column broadcast across the lanes, holds at (p, k) the
    reciprocal root of row p's sum of squares. -/
theorem rnorm_apply (x : FVec Ideal S1024x1024 .f32) (h : S1024x1024.Reduces [1] S1024) (hφ : FKind.Formats .f32)
    (ha : (0x00000000#32 : BitVec (FTy.bits .f32)) = FKind.add.neutral .f32 hφ) (hc : S1024.ShapeCasts S1024x1)
    (hb : S1024x1.Broadcasts S1024x1024) (p k : Fin 1024) :
    broadcastTo S1024x1024 (rsqrt (shapeCast S1024x1 (multiReduction (F := Ideal) .add [1] S1024 (mulf x x) 0x00000000#32 h hφ ha) hc)) hb (ix2 p k)
      = Ideal.rsqrt (∑ e : Fin 1024, x (ix2 p e) * x (ix2 p e)) := by
  refine (ColumnLayout.broadcastTo_a1_ab_apply _ hb p k).trans ?_
  exact congrArg Ideal.rsqrt (rowSum_apply (mulf x x) h hφ ha hc p)

/-- The logits array with the columns from 1000 on replaced by the named minus infinity holds at (p, c), for c below
    1000, row p's normalised product with prototype row c, and minus infinity otherwise. -/
theorem maskedLogit_apply (x : FVec Ideal S1024x1024 .f32) (y : FVec Ideal S1024x1024 .bf16)
    (h : S1024x1024.Reduces [1] S1024) (hφ : FKind.Formats .f32)
    (ha : (0x00000000#32 : BitVec (FTy.bits .f32)) = FKind.add.neutral .f32 hφ) (hc : S1024.ShapeCasts S1024x1)
    (hb : S1024x1.Broadcasts S1024x1024) (hlt : FTy.bits .bf16 < FTy.bits .f32) (hs : S1024x1024.ShapeCasts S1024x1024)
    (hi : S1024x1024.Iotas .tc 32 [1]) (p c : Fin 1024) :
    select (cmpi .slt (iota .tc S1024x1024 32 [1] hi) (broadcast S1024x1024 1000#32))
        (matmul dot_S1024x1024_S1024x1024_S1024x1024_1_1_0_0_n_n none
          (truncf .bf16 (mulf x (broadcastTo S1024x1024 (rsqrt (shapeCast S1024x1 (multiReduction (F := Ideal) .add [1] S1024 (mulf x x) 0x00000000#32 h hφ ha) hc)) hb)) hlt)
          (shapeCast S1024x1024 y hs) (constant (F := Ideal) S1024x1024 .f32 0x00000000#32))
        (broadcast S1024x1024 (Named.named (F := Ideal) Cert.KernelIdeal.κ "neg_big" (φ := .f32) 0xFF333332#32)) (ix2 p c)
      = if c.val < 1000 then kerLogit (fun d => x (ix2 p d)) (fun d => y (ix2 c d)) else ⊥ := by
  rw [select_apply]
  show Scalar.select (IntOp.cmpi .slt (iota .tc S1024x1024 32 [1] hi (ix2 p c)) 1000#32) _
      (Named.named (F := Ideal) Cert.KernelIdeal.κ "neg_big" (φ := .f32) 0xFF333332#32) = _
  rw [colNum_apply, select_inRange, neg_big, logits_apply]
  unfold kerLogit
  refine if_congr Iff.rfl (Finset.sum_congr rfl fun k _ => ?_) rfl
  rw [shapeCast_self]
  show (x (ix2 p k) * broadcastTo S1024x1024 _ hb (ix2 p k)) * y (ix2 c k) = _
  rw [rnorm_apply]

/-! ## From the masked logits to the stored column -/

/-- Over any logits array whose row p is `Lrow` and any mask whose row p marks `hit`: the logarithm of the lane sum
    of the exponentials about the lane maximum, plus that maximum, minus the lane sum of the marked logits, holds at
    (p, 0) the padded arrangement's loss of `Lrow`. -/
theorem tail_apply (L : FVec Ideal S1024x1024 .f32) (w : IVec S1024x1024 1)
    (h : S1024x1024.Reduces [1] S1024) (hφ : FKind.Formats .f32)
    (ha : (0x00000000#32 : BitVec (FTy.bits .f32)) = FKind.add.neutral .f32 hφ)
    (hm : (0xFF800000#32 : BitVec (FTy.bits .f32)) = FKind.maximumf.neutral .f32 hφ)
    (hc : S1024.ShapeCasts S1024x1) (hb : S1024x1.Broadcasts S1024x1024) (p : Fin 1024)
    (Lrow : Fin 1024 → EReal) (hit : Fin 1024 → Prop) [DecidablePred hit]
    (hL : ∀ c, L (ix2 p c) = Lrow c) (hw : ∀ c, w (ix2 p c) = 1#1 ↔ hit c) :
    (subf (addf (log (shapeCast S1024x1 (multiReduction (F := Ideal) .add [1] S1024
                  (exp (subf L (broadcastTo S1024x1024 (shapeCast S1024x1 (multiReduction (F := Ideal) .maximumf [1] S1024 L 0xFF800000#32 h hφ hm) hc) hb)))
                  0x00000000#32 h hφ ha) hc))
                (shapeCast S1024x1 (multiReduction (F := Ideal) .maximumf [1] S1024 L 0xFF800000#32 h hφ hm) hc))
          (shapeCast S1024x1 (multiReduction (F := Ideal) .add [1] S1024
            (select w L (broadcast S1024x1024 (Scalar.ofBits (F := Ideal) .f32 0x00000000#32))) 0x00000000#32 h hφ ha) hc))
        (ix2 p (0 : Fin 1))
      = kerRow Lrow hit := by
  have hM := rowMax_apply L h hφ hm hc p
  rw [show (fun c => L (ix2 p c)) = Lrow from funext hL] at hM
  unfold kerRow
  show (Ideal.log (shapeCast S1024x1 _ hc (ix2 p 0)) + shapeCast S1024x1 _ hc (ix2 p 0)) - shapeCast S1024x1 _ hc (ix2 p 0) = _
  rw [rowSum_apply, rowSum_apply, hM]
  refine congrArg₂ (· - ·) (congrArg (fun s => Ideal.log s + _) (Finset.sum_congr rfl fun c _ => ?_))
    (Finset.sum_congr rfl fun c _ => ?_)
  · show Ideal.exp (L (ix2 p c) - broadcastTo S1024x1024 _ hb (ix2 p c)) = _
    rw [ColumnLayout.broadcastTo_a1_ab_apply, hM, hL]
  · show Scalar.select (w (ix2 p c)) (L (ix2 p c)) (Ideal.ofBits .f32 0x00000000#32) = _
    rw [Ideal.ofBits_zero_f32, hL]
    by_cases hc' : hit c
    · rw [if_pos hc', (hw c).2 hc', select_one]
    · rw [if_neg hc', eq_zero_of_ne_one (fun e => hc' ((hw c).1 e)), select_zero]

/-- Entry (p, 0) of the body's stored column. -/
theorem pay_row (v0 : Vec Ideal S1024x1024 .f32) (v8 : Vec Ideal S1024x1024 .bf16) (v25 : Vec Ideal S1024x1 .i32) (p : Fin 1024) :
    (k0_pay1 (F := Ideal) v0 v8 v25 : S1024x1.Idx → EReal) (ix2 p (0 : Fin 1))
      = kerRow (fun c => if c.val < 1000 then kerLogit (fun d => v0 (ix2 p d)) (fun d => v8 (ix2 c d)) else ⊥)
          (fun c => BitVec.ofNat 32 c.val = (v25 (ix2 p (0 : Fin 1)) : BitVec 32)) := by
  unfold k0_pay1
  refine tail_apply _ _ _ _ _ _ _ _ p _ _ (fun c => ?_) (fun c => ?_)
  · exact maskedLogit_apply v0 v8 _ _ _ _ _ _ _ _ p c
  · exact hit_apply v25 _ _ _ p c

end Cert.KernelIdeal.Body

end
-- ==== Proof.KerArray.lean ====
/-
  The kernel's run with its result named: the program's scalar result is the mean (sum over the 16384 samples, divided
  by 16384) of the padded arrangement's loss vector of the argument arrays. Grid point t stores rows 1024·t … 1024·t+1023
  of the per-sample column; the 16 blocks tile it; the host then reshapes the column to a vector, sums it and divides.
-/
import proofs.«412424_j50517405335943_3_alg».proof.Proof.Gen.KernelIdeal.Frame
import proofs.«412424_j50517405335943_3_alg».proof.Proof.KerBody
import proofs.«412424_j50517405335943_3_alg».proof.Proof.RowSpec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost
import proofs.«412424_j50517405335943_3_alg».proof.Proof.LibColumnLayout

noncomputable section

open scoped BigOperators

namespace Cert.KernelIdeal.KerValue

open Cert.KernelIdeal Cert.KernelIdeal.Gen Cert.CtLoss
open Idealize.ShloMosaic Idealize.ShloMosaic.TcCoe Idealize.SL.Sem Idealize.ShloMosaic.ValueIdx

open Idealize.ShloMosaic.Pipeline (Dat)

section Pieces

variable (m : (ℓ : Loc nD τ sig) → Buf (Elt Ideal) ℓ)

/-! ## The arrays the region finds -/

/-- The label column the region finds is the label vector viewed as a column. -/
theorem labels_col (c : Dev nD) :
    (V m c main_v2 : S16384x1.Idx → BitVec 32)
      = shapeCast S16384x1 (m ((c.tc : Thread nD τ).loc main_arg2) : S16384.Idx → BitVec 32) shapeCasts_S16384_S16384x1 := by
  dsimp only [Gen.V, Gen.V0]
  simp only [Gen.hostOps0, Gen.hostOps0_1, Gen.hostOps0_2, List.flatten_cons, List.flatten_nil, List.append_nil, List.cons_append, List.nil_append]
  after_results
  rfl

/-- Its entry (r, 0) is sample r's label word. -/
theorem labels_at (c : Dev nD) (r : Fin 16384) (u : Fin 1) :
    (V m c main_v2 : S16384x1.Idx → BitVec 32) (ix2 r u) = (m ((c.tc : Thread nD τ).loc main_arg2) : S16384.Idx → BitVec 32) (ix1 r) := by
  rw [labels_col]
  exact ColumnLayout.shapeCast_a_a1_apply _ _ r u

/-- The prototype array the region finds: the prototypes narrowed to the shorter format, 24 rows of the converted
    integer zero appended below. -/
theorem protos_pad (c : Dev nD) :
    (V m c main_v1 : S1024x1024.Idx → EReal)
      = pad S1024x1024 ![0, 0] ![24, 0] ![0, 0]
          (truncf (F := Ideal) .bf16 (m ((c.tc : Thread nD τ).loc main_arg1) : S1000x1024.Idx → EReal) bitsLt_bf16_f32)
          (sitofp (F := Ideal) .bf16 (constantI S_ 32 0#32)) pads_S1000x1024_S1024x1024_0240_000 h_S_ := by
  dsimp only [Gen.V, Gen.V0]
  simp only [Gen.hostOps0, Gen.hostOps0_1, Gen.hostOps0_2, List.flatten_cons, List.flatten_nil, List.append_nil, List.cons_append, List.nil_append]
  after_results
  rfl

/-- A row below 1000 of it is that prototype row: inside the operand the padding reads the operand, and over the
    extended reals narrowing changes nothing. -/
theorem protos_at (c : Dev nD) (k : Fin 1024) (hk : k.val < 1000) (d : Fin 1024) :
    (V m c main_v1 : S1024x1024.Idx → EReal) (ix2 k d)
      = (m ((c.tc : Thread nD τ).loc main_arg1) : S1000x1024.Idx → EReal) (ix2 (⟨k.val, hk⟩ : Fin 1000) d) := by
  rw [protos_pad]
  refine (pad_apply_of_inside _ _ _ _ _ _ _ (ix2 k d) (ix2 (⟨k.val, hk⟩ : Fin 1000) d) fun a => ?_).trans ?_
  · match a with
    | ⟨0, _⟩ => show k.val = 0 + k.val * (0 + 1); omega
    | ⟨1, _⟩ => show d.val = 0 + d.val * (0 + 1); omega
  · rfl

/-! ## The windows' blocks as parts of their arrays -/

theorem hz : (![0, 0] : Fin 2 → Nat) = fun _ => 0 := funext fun a => by fin_cases a <;> rfl

/-- The printed index maps over the grid: the sample windows and the result window are at block row t, the prototype
    window at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point t is rows 1024·t … 1024·t + 1023 of the feature array. -/
theorem feat_blk (c : Dev nD) (t : Fin cfg0.N) (y : S1024x1024.Idx) (i : S16384x1024.Idx)
    (h0 : (i 0).val = 1024 * t.val + (y 0).val) (h1 : (i 1).val = (y 1).val) :
    (iblk m c 0 t : Vec Ideal S1024x1024 .f32) y = (m ((c.tc : Thread nD τ).loc main_arg0) : S16384x1024.Idx → EReal) i := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * (y 0).val = (i 0).val; rw [e0, h0]; omega
  | ⟨1, _⟩ => show win0_0.index t (1 : Fin 2) * 1024 + 1 * (y 1).val = (i 1).val; rw [e1, h1]; omega

/-- The label block at point t is rows 1024·t … 1024·t + 1023 of the label column. -/
theorem lab_blk (c : Dev nD) (t : Fin cfg0.N) (y : S1024x1.Idx) (r : Fin 16384)
    (h0 : r.val = 1024 * t.val + (y 0).val) :
    (iblk m c 1 t : Vec Ideal S1024x1 .i32) y = (m ((c.tc : Thread nD τ).loc main_arg2) : S16384.Idx → BitVec 32) (ix1 r) := by
  obtain ⟨-, -, e2, e3, -⟩ := idx_facts t
  refine Eq.trans ?_ (labels_at m c r (0 : Fin 1))
  unfold iblk
  rw [View.read_apply]
  show V m c main_v2 _ = V m c main_v2 _
  congr 1
  funext a
  apply Fin.ext
  have hy : (y 1).val < 1 := (y 1).isLt
  match a with
  | ⟨0, _⟩ => show win0_1.index t (0 : Fin 2) * 1024 + 1 * (y 0).val = r.val; rw [e2, h0]; omega
  | ⟨1, _⟩ => show win0_1.index t (1 : Fin 2) * 1 + 1 * (y 1).val = 0; rw [e3]; omega

/-- The prototype block at every point is the whole padded prototype array; a row below 1000 of it is that
    prototype row. -/
theorem proto_blk (c : Dev nD) (t : Fin cfg0.N) (k : Fin 1024) (hk : k.val < 1000) (d : Fin 1024) :
    (iblk m c 2 t : Vec Ideal S1024x1024 .bf16) (ix2 k d)
      = (m ((c.tc : Thread nD τ).loc main_arg1) : S1000x1024.Idx → EReal) (ix2 (⟨k.val, hk⟩ : Fin 1000) d) := by
  obtain ⟨-, -, -, -, e4, e5, -⟩ := idx_facts t
  refine Eq.trans ?_ (protos_at m c k hk d)
  unfold iblk
  rw [View.read_apply]
  show V m c main_v1 _ = V m c main_v1 _
  congr 1
  funext a
  apply Fin.ext
  match a with
  | ⟨0, _⟩ => show win0_2.index t (0 : Fin 2) * 1024 + 1 * k.val = k.val; rw [e4]; omega
  | ⟨1, _⟩ => show win0_2.index t (1 : Fin 2) * 1024 + 1 * d.val = d.val; rw [e5]; omega

/-! ## What a point writes back -/

/-- The per-sample losses as a column: the result window's array after the run. -/
abbrev lossCol (c : Dev nD) : S16384x1.Idx → EReal := fun j =>
  kerLoss (m ((c.tc : Thread nD τ).loc main_arg0)) (m ((c.tc : Thread nD τ).loc main_arg1)) (m ((c.tc : Thread nD τ).loc main_arg2)) (ix1 (j 0))

/-- An entry of the body's stored column, for blocks that are parts of three arrays: row y of the feature block is
    row i of the feature array, the label word beside it is sample i's, and the prototype block's rows below 1000 are
    the prototype array's. Then the entry is sample i's loss in the padded arrangement. -/
theorem out_entry (x0 : Vec Ideal S1024x1024 .f32) (x1 : Vec Ideal S1024x1 .i32) (x2 : Vec Ideal S1024x1024 .bf16)
    (A0 : S16384x1024.Idx → EReal) (A1 : S1000x1024.Idx → EReal) (A2 : S16384.Idx → BitVec 32)
    (y : S1024x1.Idx) (r : Fin 16384)
    (h0 : ∀ d : Fin 1024, x0 (ix2 (y 0) d) = A0 (ix2 r d))
    (h1 : x1 (ix2 (y 0) (0 : Fin 1)) = A2 (ix1 r))
    (h2 : ∀ (k : Fin 1024) (hk : k.val < 1000) (d : Fin 1024), x2 (ix2 k d) = A1 (ix2 (⟨k.val, hk⟩ : Fin 1000) d)) :
    (out0_3 (F := Ideal) x0 x1 x2 : S1024x1.Idx → EReal) y = kerLoss A0 A1 A2 (ix1 r) := by
  obtain ⟨p, q, rfl⟩ : ∃ (p : Fin 1024) (q : Fin 1), y = ix2 p q := ⟨y 0, y 1, eq_ix2 y⟩
  obtain rfl : q = 0 := Fin.ext (by omega)
  unfold out0_3
  rw [View.canon_unit_zero hz]
  simp only [View.ld_unit_zero (S := S1024x1024) hz, View.ld_unit_zero (S := S1024x1) hz]
  rw [Body.pay_row]
  have hx : (fun d => x0 (ix2 p d)) = fun d => A0 (ix2 r d) := funext h0
  have hL : (fun c : Fin 1024 => if c.val < 1000 then kerLogit (fun d => x0 (ix2 p d)) (fun d => x2 (ix2 c d)) else ⊥)
      = fun c : Fin 1024 => if h : c.val < 1000 then kerLogit (fun d => A0 (ix2 r d)) (fun d => A1 (ix2 (⟨c.val, h⟩ : Fin 1000) d)) else ⊥ := by
    funext c
    by_cases h : c.val < 1000
    · rw [if_pos h, dif_pos h, hx]
      exact congrArg _ (funext fun d => h2 c h d)
    · rw [if_neg h, dif_neg h]
  rw [hL, h1]
  rfl

/-- WHAT POINT t WRITES BACK is block t of the loss column. -/
theorem flushed_eq (c : Dev nD) (t : Fin cfg0.N) :
    (dats m 0 c).flushed 3 t = ((cfg0.win 3).blk t).view.read (Elt Ideal) (lossCol m c) := by
  show (cfg0.win 3).cut (grid0.coords t) ((dats m 0 c).after 3 t) = _
  rw [after0_3]
  obtain ⟨-, -, -, -, -, -, e6, e7⟩ := idx_facts t
  funext j
  have hj : (j 0).val < 1024 := (j 0).isLt
  have hN : t.val < 16 := lt_of_lt_of_eq t.isLt N_0
  have hrow : ((((cfg0.win 3).blk t).view.emb j) 0).val = 1024 * t.val + (j 0).val := by
    show win0_3.index t (0 : Fin 2) * 1024 + 1 * (j 0).val = _
    rw [e6]; omega
  refine out_entry (iblk m c 0 t) (iblk m c 1 t) (iblk m c 2 t)
    (m ((c.tc : Thread nD τ).loc main_arg0)) (m ((c.tc : Thread nD τ).loc main_arg1)) (m ((c.tc : Thread nD τ).loc main_arg2))
    ((cfg0.win 3).xinj (grid0.coords t) j) ((((cfg0.win 3).blk t).view.emb j) 0) ?_ ?_ ?_
  · intro d
    exact feat_blk m c t _ _ hrow rfl
  · exact lab_blk m c t _ _ hrow
  · exact fun k hk d => proto_blk m c t k hk d

/-! ## The blocks tile the column -/

/-- An index of the column is in point t's block iff each coordinate is in the block's range on its axis. -/
theorem mem_blk (t : Fin cfg0.N) (i : S16384x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v3).slice (win0_3.rect t)).set ↔ _
  rw [View.set_slice_whole, Rect.mem_set_unit]
  exact Iff.rfl

/-- Row r of the column is in the block of point r / 1024. -/
theorem cover (i : S16384x1.Idx) :
    ∃ t : Fin cfg0.N, (cfg0.win 3).flush t = true ∧ i ∈ ((cfg0.win 3).blk t).view.set := by
  have hi0 : (i 0).val < 16384 := (i 0).isLt
  have hi1 : (i 1).val < 1 := (i 1).isLt
  have hN : cfg0.N = 16 := N_0
  have ht : (i 0).val / 1024 < cfg0.N := by rw [hN]; omega
  obtain ⟨-, -, -, -, -, -, e6, e7⟩ := idx_facts ⟨(i 0).val / 1024, ht⟩
  refine ⟨⟨(i 0).val / 1024, ht⟩, flush0_3 _, ?_⟩
  rw [mem_blk]
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    rw [e6]
    show (i 0).val / 1024 * 1024 ≤ (i 0).val ∧ (i 0).val < (i 0).val / 1024 * 1024 + 1024
    omega
  | ⟨1, _⟩ =>
    show win0_3.index ⟨(i 0).val / 1024, ht⟩ (1 : Fin 2) * 1 ≤ (i 1).val ∧ (i 1).val < win0_3.index ⟨(i 0).val / 1024, ht⟩ (1 : Fin 2) * 1 + 1
    rw [e7]
    omega

/-- THE RESULT COLUMN after the run is the loss column. -/
theorem final (c : Dev nD) : (dats m 0 c).arrAt 3 cfg0.N = lossCol m c :=
  (dats m 0 c).arrAt_eq_of_cover 3 (lossCol m c) (fun t _ => flushed_eq m c t) cover

/-! ## The host's tail: the column as a vector, its sum, the quotient -/

/-- The column viewed as a vector is the loss vector. -/
theorem lossCol_flat (c : Dev nD) :
    shapeCast S16384 (lossCol m c) shapeCasts_S16384x1_S16384
      = kerLoss (m ((c.tc : Thread nD τ).loc main_arg0)) (m ((c.tc : Thread nD τ).loc main_arg1)) (m ((c.tc : Thread nD τ).loc main_arg2)) := by
  funext i
  obtain ⟨r, rfl⟩ : ∃ r : Fin 16384, i = ix1 r := ⟨i 0, eq_ix1 i⟩
  refine (shapeCast_apply (lossCol m c) shapeCasts_S16384x1_S16384 (ix1 r) (ix2 r (0 : Fin 1)) ?_).trans rfl
  rw [Shape.rowMajor_val_two, Shape.rowMajor_val_one]
  show r.val * 1 + 0 = r.val
  omega

/-- The program's result after the host's tail: the loss vector summed from zero and divided by 16384. -/
theorem tail_value (c : Dev nD) :
    Pipeline.afterTail₀ cfgs (dats m) 0 (V0 m) [hostOps1] c main_v6
      = Host.divf (Host.reduceAdd (F := Ideal)
          (kerLoss (m ((c.tc : Thread nD τ).loc main_arg0)) (m ((c.tc : Thread nD τ).loc main_arg1)) (m ((c.tc : Thread nD τ).loc main_arg2)))
          (constant S_ .f32 0x00000000#32) reducesTo_S16384_S_d0 h_S_) (constant S_ .f32 0x46800000#32) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v3) = lossCol m c :=
    (Pipeline.withArrays_arr spec0 launch0.win.arr_inj c _ _ 3).trans (final m c)
  rw [e]
  exact congrArg (fun X : S16384.Idx → EReal => Host.divf (Host.reduceAdd (F := Ideal) X (constant S_ .f32 0x00000000#32) reducesTo_S16384_S_d0 h_S_) (constant S_ .f32 0x46800000#32)) (lossCol_flat m c)

end Pieces

/-- Every weakly fair execution of the idealized kernel program terminates with its result at the mean of the padded
    arrangement's loss vector of the argument arrays, and the argument arrays unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
        = Host.divf (Host.reduceAdd (F := Ideal)
            (kerLoss (m ((c.tc : Thread nD τ).loc main_arg0)) (m ((c.tc : Thread nD τ).loc main_arg1)) (m ((c.tc : Thread nD τ).loc main_arg2)))
            (constant S_ .f32 0x00000000#32) reducesTo_S16384_S_d0 h_S_) (constant S_ .f32 0x46800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run defs _ _).mono (fun _ h c =>
      ⟨((h c).2 main_v6 (Pipeline.mem_restRefs_of main_v6 (by decide) (by decide))).trans (tail_value m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (Gen.run_main m ρ)

end Cert.KernelIdeal.KerValue

end
-- ==== Proof.PreFacts.lean ====
/-
  What the precondition says of the argument arrays at the extended reals: every entry of the two float arrays is a
  real number, every label word is in the label range 0 … 999, and no sample is the zero row (its sum of squares is
  positive).
-/
import proofs.«412424_j50517405335943_3_alg».proof.Pre_finite_inputs
import proofs.«412424_j50517405335943_3_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal.Laws

noncomputable section

open scoped BigOperators

namespace Cert.Pre_finite_inputs.Decode

open Cert.Pre_finite_inputs Idealize.ShloMosaic Idealize.ShloMosaic.ValueIdx

/-- The scalar shape has one index. -/
theorem subsingleton_scalar_idx : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value max x (-x) is below +∞ is a real number: at -∞ the maximum is -(-∞) = +∞, at +∞
    it is +∞ itself. -/
theorem real_of_abs_lt_top (x : EReal) (h : Ideal.cmp .olt (max x (-x)) (⊤ : EReal) = 1#1) : x ≠ ⊥ ∧ x ≠ ⊤ := by
  unfold Ideal.cmp at h
  rw [StableHlo.Predicate.ofBool_eq_one_iff, decide_eq_true_eq] at h
  constructor
  · rintro rfl
    simp at h
  · rintro rfl
    simp at h

/-- A 32-bit word in [0, 1000) as a signed number is below 1000 as an unsigned one: a non-negative signed value is the
    unsigned value. -/
theorem toNat_lt_of_signed (w : BitVec 32) (h0 : IntOp.cmpi .sge w (0#32) = 1#1) (h1 : IntOp.cmpi .slt w (1000#32) = 1#1) :
    w.toNat < 1000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (1000#32 : BitVec 32).toInt = 1000 := by decide
  rw [e0] at h0
  rw [e1] at h1
  have hw := w.isLt
  rw [BitVec.toInt_eq_toNat_cond] at h0 h1
  split at h0 <;> omega

/-- The precondition, read at the extended reals. -/
theorem of_pre [Cert.Pre_finite_inputs.Facts] (x0 : FVec Ideal S16384x1024 .f32) (x1 : FVec Ideal S1000x1024 .f32) (x2 : IVec S16384 32)
    (h : Cert.Pre_finite_inputs.fn (F := Ideal) x0 x1 x2 = fun _ => 1#1) :
    (∀ i, x0 i ≠ ⊥ ∧ x0 i ≠ ⊤) ∧ (∀ i, x1 i ≠ ⊥ ∧ x1 i ≠ ⊤) ∧ (∀ i, (x2 i).toNat < 1000)
      ∧ (∀ r : Fin 16384, 0 < ∑ e : Fin 1024, x0 (ix2 r e) * x0 (ix2 r e)) := by
  -- the function's one result word is 1: a conjunction of four all-quantified bits
  have e := congrFun h ValueIdx.ix0
  dsimp only [fn, fn_part1] at e
  obtain ⟨e123, e4⟩ := IntOp.andi_eq_one.1 e
  obtain ⟨e12, e3⟩ := IntOp.andi_eq_one.1 e123
  obtain ⟨e1, e2⟩ := IntOp.andi_eq_one.1 e12
  clear e e123 e12 h
  haveI := subsingleton_scalar_idx
  refine ⟨fun i => ?_, fun i => ?_, fun i => ?_, fun r => ?_⟩
  · -- entry i of the first array: max x (-x) < +∞
    have t := Host.reduce_andi_all _ _ _ _ _ e1 i
    have t' : Ideal.cmp .olt (max (x0 i) (-(x0 i))) (Ideal.ofBits .f32 0x7F800000#32) = 1#1 := t
    rw [ofBits_inf] at t'
    exact real_of_abs_lt_top _ t'
  · -- entry i of the second array likewise
    have t := Host.reduce_andi_all _ _ _ _ _ e2 i
    have t' : Ideal.cmp .olt (max (x1 i) (-(x1 i))) (Ideal.ofBits .f32 0x7F800000#32) = 1#1 := t
    rw [ofBits_inf] at t'
    exact real_of_abs_lt_top _ t'
  · -- label i: 0 ≤ w and w < 1000, both signed
    have t := Host.reduce_andi_all _ _ _ _ _ e3 i
    have t' : IntOp.andi (IntOp.cmpi .sge (x2 i) (0#32)) (IntOp.cmpi .slt (x2 i) (1000#32)) = 1#1 := t
    obtain ⟨a, b⟩ := IntOp.andi_eq_one.1 t'
    exact toNat_lt_of_signed _ a b
  · -- row r: the sum along the second axis of the squares, from 0, is above 0
    have t := Host.reduce_andi_all _ _ _ _ _ e4 (ix1 r)
    have hR : S16384x1024.Reduces [1] S16384 := by decide
    simp only [cmpf, Host.reduceAdd, broadcastInDim, constant, Ideal.cmpf_def, Ideal.hostReduceAdd_def, Ideal.ofBits_def] at t
    rw [Ideal.hostReduceAdd_single _ hR, Ideal.ofBits_zero_f32, zero_add] at t
    unfold Ideal.cmp at t
    rw [StableHlo.Predicate.ofBool_eq_one_iff, decide_eq_true_eq] at t
    -- the index with coordinate k inserted on the second axis of row r is (r, k)
    have hs : ∑ k : Fin (S16384x1024.size 1), mulf x0 x0 (hR.lift (ix1 r) k) = ∑ e : Fin 1024, x0 (ix2 r e) * x0 (ix2 r e) := by
      refine Finset.sum_congr rfl fun k _ => ?_
      have hk : hR.lift (ix1 r) k = ix2 r k :=
        funext fun a => Fin.ext (by match a with | ⟨0, _⟩ => rfl | ⟨1, _⟩ => rfl)
      rw [hk]
      rfl
    rw [hs] at t
    exact t

end Cert.Pre_finite_inputs.Decode

end
-- ==== Proof.LibSumPad.lean ====
/-
  Sums over a padded index range. A sum over `Fin b` of a function that vanishes outside the image of an injective map
  `e : Fin a → Fin b` is the sum over `Fin a` of the function along `e`: the padding positions contribute nothing. In any
  additive commutative monoid, so in particular at the extended reals, where a term whose weight is the zero of a padded
  row or column is zero whatever its other factor is.
-/
import Mathlib.Algebra.BigOperators.Group.Finset.Basic
import Mathlib.Algebra.BigOperators.Fin
import Mathlib.Data.Fintype.Basic

namespace LibSumPad

open Finset

/-- A sum over the larger range of a function vanishing off the image of an injection is the sum along the injection. -/
theorem sum_eq_sum_along {M : Type*} [AddCommMonoid M] {a b : ℕ} (e : Fin a → Fin b) (he : Function.Injective e)
    (f : Fin b → M) (h0 : ∀ k : Fin b, (∀ j : Fin a, e j ≠ k) → f k = 0) :
    ∑ k : Fin b, f k = ∑ j : Fin a, f (e j) := by
  have hmap : ∑ j : Fin a, f (e j) = ∑ k ∈ (Finset.univ.map ⟨e, he⟩ : Finset (Fin b)), f k := by
    rw [Finset.sum_map]; rfl
  rw [hmap]
  symm
  apply Finset.sum_subset (Finset.subset_univ _)
  intro k _ hk
  apply h0
  intro j hj
  exact hk (Finset.mem_map.mpr ⟨j, Finset.mem_univ _, hj⟩)

end LibSumPad
-- ==== Proof.RowLaw.lean ====
/-
  The row law: the padded arrangement of the loss equals the log-softmax arrangement.

  With the row and the prototypes finite and the row's sum of squares σ positive, every quantity is a real number:
  `x · σ^(-1/2)` and `x / σ^(1/2)` are both `x · (√σ)⁻¹`, so both arrangements have the same real logits `ℓ c`; the
  maximum `M` of the padded row (entries `-∞` beyond column 999) is the maximum of the 1000 real logits, itself real;
  a padded column contributes `exp (-∞ - M) = 0` to the sum of exponentials; the indicator sum picks `ℓ y`; and
  `log S + M - ℓ y = -((ℓ y - M) - log S)` in `ℝ`, where `S = ∑ exp (ℓ c - M) > 0`.
-/
import proofs.«412424_j50517405335943_3_alg».proof.Proof.RowSpec
import proofs.«412424_j50517405335943_3_alg».proof.Proof.LibSumPad

noncomputable section

open scoped BigOperators

namespace Cert.CtLoss

open Idealize.ShloMosaic Idealize.ShloMosaic.ValueIdx

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real row's sum of squares, computed at the extended reals, is the coercion of the real sum of squares. -/
theorem sumsq_coe (ξ : Fin 1024 → ℝ) :
    (∑ e, (ξ e : EReal) * (ξ e : EReal)) = ((∑ e, ξ e * ξ e : ℝ) : EReal) := by
  rw [coe_sum]; exact Finset.sum_congr rfl fun e _ => (EReal.coe_mul _ _).symm

/-- The real logit both arrangements compute: the row scaled by `(√σ)⁻¹` against the prototype row. -/
def realLogit (ξ π : Fin 1024 → ℝ) : ℝ := ∑ d, (ξ d * (Real.sqrt (∑ e, ξ e * ξ e))⁻¹) * π d

/-- The product with the reciprocal square root of a positive sum of squares gives the real logit. -/
theorem kerLogit_coe (ξ π : Fin 1024 → ℝ) (hσ : 0 < ∑ e, ξ e * ξ e) :
    kerLogit (fun d => (ξ d : EReal)) (fun d => (π d : EReal)) = (realLogit ξ π : EReal) := by
  unfold kerLogit realLogit
  rw [sumsq_coe, Ideal.rsqrt_coe, if_neg (not_lt.2 hσ.le), if_neg hσ.ne', coe_sum]
  exact Finset.sum_congr rfl fun d _ => by rw [EReal.coe_mul, EReal.coe_mul]

/-- The quotient by the square root of a positive sum of squares, then by one, gives the same real logit. -/
theorem refLogit_coe (ξ π : Fin 1024 → ℝ) (hσ : 0 < ∑ e, ξ e * ξ e) :
    refLogit (fun d => (ξ d : EReal)) (fun d => (π d : EReal)) = (realLogit ξ π : EReal) := by
  have hsq : Real.sqrt (∑ e, ξ e * ξ e) ≠ 0 := (Real.sqrt_pos.2 hσ).ne'
  unfold refLogit realLogit
  rw [sumsq_coe, Ideal.sqrt_coe, if_neg (not_lt.2 hσ.le)]
  rw [show (1 : EReal) = ((1 : ℝ) : EReal) from rfl, Ideal.div_coe one_ne_zero, one_div, inv_one, EReal.coe_one, mul_one, coe_sum]
  refine Finset.sum_congr rfl fun d _ => ?_
  rw [Ideal.div_coe hsq, one_div, EReal.coe_mul, EReal.coe_mul]

/-- The maximum, from `-∞`, of finitely many real numbers indexed by a nonempty range is a real number. -/
theorem fold_max_real (ℓ : Fin 1000 → ℝ) :
    ∃ μ : ℝ, (Finset.univ : Finset (Fin 1000)).fold max ⊥ (fun c => (ℓ c : EReal)) = (μ : EReal) := by
  have hbot : (Finset.univ : Finset (Fin 1000)).fold max ⊥ (fun c => (ℓ c : EReal)) ≠ ⊥ := by
    intro h
    have : ((ℓ 0 : ℝ) : EReal) ≤ ⊥ := by
      rw [← h]; exact (Finset.le_fold_max _).2 (Or.inr ⟨0, Finset.mem_univ _, le_rfl⟩)
    exact absurd (le_bot_iff.1 this) (EReal.coe_ne_bot _)
  have htop : (Finset.univ : Finset (Fin 1000)).fold max ⊥ (fun c => (ℓ c : EReal)) ≠ ⊤ := by
    refine ne_of_lt ((Finset.fold_max_lt _).2 ⟨bot_lt_top, fun c _ => EReal.coe_lt_top _⟩)
  exact ⟨_, (EReal.coe_toReal htop hbot).symm⟩

/-- The padded row: the real logits on columns 0 … 999, `-∞` beyond. -/
def padRow (ℓ : Fin 1000 → ℝ) : Fin 1024 → EReal :=
  fun c => if h : c.val < 1000 then (ℓ ⟨c.val, h⟩ : EReal) else ⊥

theorem padRow_cast (ℓ : Fin 1000 → ℝ) (j : Fin 1000) :
    padRow ℓ (Fin.castLE (by norm_num : 1000 ≤ 1024) j) = (ℓ j : EReal) := by
  unfold padRow
  have hj : (Fin.castLE (by norm_num : 1000 ≤ 1024) j).val < 1000 := j.isLt
  rw [dif_pos hj]
  rfl

theorem padRow_pad (ℓ : Fin 1000 → ℝ) (k : Fin 1024) (hk : ∀ j : Fin 1000, Fin.castLE (by norm_num : 1000 ≤ 1024) j ≠ k) :
    padRow ℓ k = ⊥ := by
  unfold padRow
  rw [dif_neg]
  intro h
  exact hk ⟨k.val, h⟩ (Fin.ext rfl)

/-- The padded row's maximum is the maximum of the 1000 real logits. -/
theorem fold_max_padRow (ℓ : Fin 1000 → ℝ) :
    (Finset.univ : Finset (Fin 1024)).fold max ⊥ (padRow ℓ)
      = (Finset.univ : Finset (Fin 1000)).fold max ⊥ (fun c => (ℓ c : EReal)) := by
  apply le_antisymm
  · refine (Finset.fold_max_le _).2 ⟨bot_le, fun c _ => ?_⟩
    unfold padRow
    by_cases h : c.val < 1000
    · rw [dif_pos h]
      exact (Finset.le_fold_max _).2 (Or.inr ⟨⟨c.val, h⟩, Finset.mem_univ _, le_rfl⟩)
    · rw [dif_neg h]; exact bot_le
  · refine (Finset.fold_max_le _).2 ⟨bot_le, fun c _ => ?_⟩
    refine (Finset.le_fold_max _).2 (Or.inr ⟨Fin.castLE (by norm_num : 1000 ≤ 1024) c, Finset.mem_univ _, ?_⟩)
    rw [padRow_cast]

/-- The two arrangements over one family of real logits. -/
theorem rows_real (ℓ : Fin 1000 → ℝ) (y : Fin 1000) (hit : Fin 1024 → Prop) [DecidablePred hit]
    (hhit : ∀ c : Fin 1024, hit c ↔ c.val = y.val) :
    kerRow (padRow ℓ) hit = refRow (fun c => (ℓ c : EReal)) y := by
  obtain ⟨μ, hμ⟩ := fold_max_real ℓ
  unfold kerRow refRow
  rw [fold_max_padRow, hμ]
  -- the sum of exponentials: a padded column adds exp (-∞ - μ) = 0
  have hS : (∑ c : Fin 1024, Ideal.exp (padRow ℓ c - (μ : EReal)))
      = ((∑ c : Fin 1000, Real.exp (ℓ c - μ) : ℝ) : EReal) := by
    rw [LibSumPad.sum_eq_sum_along (Fin.castLE (by norm_num : 1000 ≤ 1024)) (Fin.castLE_injective _)
      (fun c => Ideal.exp (padRow ℓ c - (μ : EReal)))
      (fun k hk => by rw [padRow_pad ℓ k hk, EReal.bot_sub, Ideal.exp_bot]), coe_sum]
    refine Finset.sum_congr rfl fun j _ => ?_
    rw [padRow_cast, ← EReal.coe_sub, Ideal.exp_coe]
  have hS' : (∑ c : Fin 1000, Ideal.exp ((ℓ c : EReal) - (μ : EReal)))
      = ((∑ c : Fin 1000, Real.exp (ℓ c - μ) : ℝ) : EReal) := by
    rw [coe_sum]
    refine Finset.sum_congr rfl fun j _ => ?_
    rw [← EReal.coe_sub, Ideal.exp_coe]
  have hpos : 0 < ∑ c : Fin 1000, Real.exp (ℓ c - μ) :=
    Finset.sum_pos (fun c _ => Real.exp_pos _) ⟨0, Finset.mem_univ _⟩
  -- the indicator sum picks the label's logit
  have hsel : (∑ c : Fin 1024, (if hit c then padRow ℓ c else 0)) = (ℓ y : EReal) := by
    rw [Finset.sum_eq_single (Fin.castLE (by norm_num : 1000 ≤ 1024) y)]
    · rw [if_pos ((hhit _).2 rfl), padRow_cast]
    · intro c _ hc
      rw [if_neg]
      intro h
      exact hc (Fin.ext ((hhit c).1 h))
    · intro h; exact absurd (Finset.mem_univ _) h
  rw [hS, hS', hsel, Ideal.log_coe, if_neg (not_le.2 hpos)]
  rw [← EReal.coe_add, ← EReal.coe_sub, ← EReal.coe_sub, ← EReal.coe_sub, ← EReal.coe_neg]
  congr 1
  ring

/-- THE ROW LAW. For a finite row with a positive sum of squares and finite prototypes, the padded arrangement with
    the label's column marked is the log-softmax arrangement at the label. -/
theorem row_eq (x : Fin 1024 → EReal) (P : Fin 1000 → Fin 1024 → EReal) (y : Fin 1000)
    (hit : Fin 1024 → Prop) [DecidablePred hit] (hhit : ∀ c : Fin 1024, hit c ↔ c.val = y.val)
    (hx : ∀ d, x d ≠ ⊥ ∧ x d ≠ ⊤) (hP : ∀ c d, P c d ≠ ⊥ ∧ P c d ≠ ⊤) (hs : 0 < ∑ e, x e * x e) :
    kerRow (fun c => if h : c.val < 1000 then kerLogit x (P ⟨c.val, h⟩) else ⊥) hit
      = refRow (fun c => refLogit x (P c)) y := by
  -- the data as real numbers
  have hxe : x = fun d => (((x d).toReal : ℝ) : EReal) :=
    funext fun d => (EReal.coe_toReal (hx d).2 (hx d).1).symm
  have hPe : ∀ c, P c = fun d => (((P c d).toReal : ℝ) : EReal) :=
    fun c => funext fun d => (EReal.coe_toReal (hP c d).2 (hP c d).1).symm
  have hσ : 0 < ∑ e, (x e).toReal * (x e).toReal := by
    rw [hxe, sumsq_coe] at hs
    exact EReal.coe_pos.1 hs
  have hk : ∀ c : Fin 1000, kerLogit x (P c) = (realLogit (fun d => (x d).toReal) (fun d => (P c d).toReal) : EReal) := by
    intro c
    rw [hxe, hPe c]
    exact kerLogit_coe _ _ (by simpa using hσ)
  have hr : ∀ c : Fin 1000, refLogit x (P c) = (realLogit (fun d => (x d).toReal) (fun d => (P c d).toReal) : EReal) := by
    intro c
    rw [hxe, hPe c]
    exact refLogit_coe _ _ (by simpa using hσ)
  have hL : (fun c : Fin 1024 => if h : c.val < 1000 then kerLogit x (P ⟨c.val, h⟩) else ⊥)
      = padRow (fun c => realLogit (fun d => (x d).toReal) (fun d => (P c d).toReal)) := by
    funext c
    unfold padRow
    by_cases h : c.val < 1000
    · rw [dif_pos h, dif_pos h, hk]
    · rw [dif_neg h, dif_neg h]
  have hR : (fun c : Fin 1000 => refLogit x (P c))
      = fun c => ((realLogit (fun d => (x d).toReal) (fun d => (P c d).toReal) : ℝ) : EReal) := funext hr
  rw [hR]
  -- the decidability instance travels with `hit`; rewrite the row under `kerRow`
  have := rows_real (fun c => realLogit (fun d => (x d).toReal) (fun d => (P c d).toReal)) y hit hhit
  rw [← hL] at this
  exact this

/-- For finite arrays, labels in the label range and no zero sample, the two loss vectors are one. -/
theorem loss_eq (x0 : (⟨2, ![16384, 1024]⟩ : Shape).Idx → EReal) (x1 : (⟨2, ![1000, 1024]⟩ : Shape).Idx → EReal)
    (x2 : (⟨1, ![16384]⟩ : Shape).Idx → BitVec 32)
    (h0 : ∀ i, x0 i ≠ ⊥ ∧ x0 i ≠ ⊤) (h1 : ∀ i, x1 i ≠ ⊥ ∧ x1 i ≠ ⊤) (h2 : ∀ i, (x2 i).toNat < 1000)
    (hs : ∀ r : Fin 16384, 0 < ∑ e : Fin 1024, x0 (ix2 r e) * x0 (ix2 r e)) :
    kerLoss x0 x1 x2 = refLoss x0 x1 x2 := by
  funext i
  refine row_eq _ (fun c d => x1 (ix2 c d)) (labOf (x2 i)) _ (fun c => ?_) (fun d => h0 _) (fun c d => h1 _) (hs (i 0))
  have hc : c.val < 1024 := c.isLt
  have hw := h2 i
  constructor
  · intro h
    have := congrArg BitVec.toNat h
    simp only [BitVec.toNat_ofNat] at this
    show c.val = (x2 i).toNat % 1000
    omega
  · intro h
    have h' : c.val = (x2 i).toNat % 1000 := h
    apply BitVec.eq_of_toNat_eq
    simp only [BitVec.toNat_ofNat]
    omega

end Cert.CtLoss

end
-- ==== Proof.lean ====
/-
  The certificate: the kernel program and its idealization run, terminate and keep their arguments (the generated
  frames); the reference runs likewise (its run, read back); the idealization differs from the kernel by ONE named
  constant — the finite fill of the 24 padding columns, read as -∞ —; and at the extended reals, from memories agreeing
  on the arguments and satisfying the precondition (finite features and prototypes, labels in 0 … 999, no zero sample),
  both programs end with the same scalar: the mean over the 16384 samples of one loss vector. The kernel's vector is
  the padded arrangement (`kerLoss`), the reference's the log-softmax arrangement (`refLoss`), and the row law joins
  them (`loss_eq`); the mean (a sum from 0 and a division by 16384) is the same operation on both sides.
-/
import proofs.«412424_j50517405335943_3_alg».proof.Defs
import proofs.«412424_j50517405335943_3_alg».proof.Proof.Gen.Kernel
import proofs.«412424_j50517405335943_3_alg».proof.Proof.Gen.Kernel.Frame
import proofs.«412424_j50517405335943_3_alg».proof.Proof.Gen.KernelIdeal
import proofs.«412424_j50517405335943_3_alg».proof.Proof.Gen.KernelIdeal.Frame
import proofs.«412424_j50517405335943_3_alg».proof.Proof.Gen.ReferenceIdeal
import proofs.«412424_j50517405335943_3_alg».proof.Proof.Gen.Pre_finite_inputs
import proofs.«412424_j50517405335943_3_alg».proof.Proof.RefRun
import proofs.«412424_j50517405335943_3_alg».proof.Proof.RefRead
import proofs.«412424_j50517405335943_3_alg».proof.Proof.RefRows
import proofs.«412424_j50517405335943_3_alg».proof.Proof.KerArray
import proofs.«412424_j50517405335943_3_alg».proof.Proof.PreFacts
import proofs.«412424_j50517405335943_3_alg».proof.Proof.RowLaw
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the padding fill is named, and the name denotes -∞. -/
theorem preserves : Cert.preserves_Kernel_KernelIdeal :=
  IdealRules.named_const.statement Cert.KernelIdeal.κ "neg_big" .f32 0xFF333332#32 ⊥ rfl

/-- Both programs end at the mean of one loss vector of the (agreeing) argument arrays. -/
theorem algebraic : Cert.algebraic_KernelIdeal_ReferenceIdeal := by
  intro m ρ m' ρ' hpre hagree
  refine ⟨_, Cert.KernelIdeal.KerValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, hs⟩ := Cert.Pre_finite_inputs.Decode.of_pre _ _ _ (hpre c)
  rw [Cert.ReferenceIdeal.Read.val_main_v12_eq, (hagree c).1, (hagree c).2.1, (hagree c).2.2]
  unfold Cert.ReferenceIdeal.Read.val_main_v12 Cert.ReferenceIdeal.Read.val_main_v11
  rw [Cert.ReferenceIdeal.RefRows.ref_loss _ _ _ h2, ← Cert.CtLoss.loss_eq _ _ _ h0 h1 h2 hs]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
